-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1024x512 : Shape := ⟨2, ![1024, 512]⟩
abbrev S1024 : Shape := ⟨1, ![1024]⟩
abbrev S512x1024 : Shape := ⟨2, ![512, 1024]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_

variable [Facts]

def fn_part3 {F : FTy → Type} [FloatOps F] (main_v47 : IVec S_ 1) (main_v49 : IVec S512 1) (main_c_19 : IVec S_ 1) : IVec S_ 1 :=
  let main_v50 : IVec S_ 1 := (fun x v => Host.reduce IntOp.andi x v reducesTo_S512_S_d0 h_S_) main_v49 main_c_19
  let main_v51 : IVec S_ 1 := andi main_v47 main_v50
  main_v51

def fn_part2 {F : FTy → Type} [FloatOps F] (main_arg2 : FVec F S1024 .f32) (main_arg4 : FVec F S512 .f32) (main_arg7 : FVec F S512x2048 .f32) (main_arg8 : FVec F S512 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_cst_16 : FVec F S_ .f32 := constant S_ .f32 0x00000000#32
  let main_v44 : FVec F S1024 .f32 := broadcastInDim S1024 ![] bcast_S_S1024 main_cst_16
  let main_v45 : IVec S1024 1 := cmpf .une main_arg2 main_v44
  let main_c_17 : IVec S_ 1 := constantI S_ 1 1#1
  let main_v46 : IVec S_ 1 := (fun x v => Host.reduce IntOp.andi x v reducesTo_S1024_S_d0 h_S_) main_v45 main_c_17
  let main_v47 : IVec S_ 1 := andi main_v43 main_v46
  let main_cst_18 : FVec F S_ .f32 := constant S_ .f32 0x00000000#32
  let main_v48 : FVec F S512 .f32 := broadcastInDim S512 ![] bcast_S_S512 main_cst_18
  let main_v49 : IVec S512 1 := cmpf .une main_arg4 main_v48
  let main_c_19 : IVec S_ 1 := constantI S_ 1 1#1
  fn_part3 (F := F) main_v47 main_v49 main_c_19

def fn_part1 {F : FTy → Type} [FloatOps F] (main_arg2 : FVec F S1024 .f32) (main_arg4 : FVec F S512 .f32) (main_arg5 : FVec F S2048x512 .f32) (main_arg6 : FVec F S2048 .f32) (main_arg7 : FVec F S512x2048 .f32) (main_arg8 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg2 main_arg4 main_arg7 main_arg8 main_v33

def fn {F : FTy → Type} [FloatOps F] (main_arg0 : FVec F S8192x512 .f32) (main_arg1 : FVec F S1024x512 .f32) (main_arg2 : FVec F S1024 .f32) (main_arg3 : FVec F S512x1024 .f32) (main_arg4 : FVec F S512 .f32) (main_arg5 : FVec F S2048x512 .f32) (main_arg6 : FVec F S2048 .f32) (main_arg7 : FVec F S512x2048 .f32) (main_arg8 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg2 main_arg4 main_arg5 main_arg6 main_arg7 main_arg8 main_v13 main_v16
-- ==== Kernel.lean ====
abbrev S8192x512 : Shape := ⟨2, ![8192, 512]⟩
abbrev S1024x512 : Shape := ⟨2, ![1024, 512]⟩
abbrev S1024 : Shape := ⟨1, ![1024]⟩
abbrev S512x1024 : Shape := ⟨2, ![512, 1024]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S_ : Shape := ⟨0, ![]⟩
abbrev S1x1024 : Shape := ⟨2, ![1, 1024]⟩
abbrev S1x512 : Shape := ⟨2, ![1, 512]⟩
abbrev S1x2048 : Shape := ⟨2, ![1, 2048]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S256x2048 : Shape := ⟨2, ![256, 2048]⟩

abbrev nBuf : Space → Nat
  | .hbm => 39
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024, .f32⟩
  | .hbm, ⟨3, _⟩ => ⟨S512x1024, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S512, .f32⟩
  | .hbm, ⟨9, _⟩ => ⟨S512x1024, .f32⟩
  | .hbm, ⟨10, _⟩ => ⟨S512x1024, .bf16⟩
  | .hbm, ⟨11, _⟩ => ⟨S1024x512, .f32⟩
  | .hbm, ⟨12, _⟩ => ⟨S1024x512, .bf16⟩
  | .hbm, ⟨13, _⟩ => ⟨S512x2048, .f32⟩
  | .hbm, ⟨14, _⟩ => ⟨S512x2048, .bf16⟩
  | .hbm, ⟨15, _⟩ => ⟨S2048x512, .f32⟩
  | .hbm, ⟨16, _⟩ => ⟨S2048x512, .bf16⟩
  | .hbm, ⟨17, _⟩ => ⟨S1024x512, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S512x1024, .f32⟩
  | .hbm, ⟨22, _⟩ => ⟨S_, .f32⟩
  | .hbm, ⟨23, _⟩ => ⟨S512, .f32⟩
  | .hbm, ⟨24, _⟩ => ⟨S1x512, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S1x512, .f32⟩
  | .hbm, ⟨35, _⟩ => ⟨S1x2048, .f32⟩
  | .hbm, ⟨36, _⟩ => ⟨S1x512, .f32⟩
  | .hbm, ⟨37, _⟩ => ⟨S8192x512, .f32⟩
  | .hbm, ⟨38, _⟩ => ⟨S8192x512, .f32⟩
  | .local _ .vmem, ⟨0, _⟩ => ⟨S256x512, .f32⟩
  | .local _ .vmem, ⟨1, _⟩ => ⟨S256x512, .f32⟩
  | .local _ .vmem, ⟨2, _⟩ => ⟨S512x1024, .bf16⟩
  | .local _ .vmem, ⟨3, _⟩ => ⟨S1x1024, .f32⟩
  | .local _ .vmem, ⟨4, _⟩ => ⟨S1x1024, .f32⟩
  | .local _ .vmem, ⟨5, _⟩ => ⟨S1024x512, .bf16⟩
  | .local _ .vmem, ⟨6, _⟩ => ⟨S1x512, .f32⟩
  | .local _ .vmem, ⟨7, _⟩ => ⟨S1x512, .f32⟩
  | .local _ .vmem, ⟨8, _⟩ => ⟨S512x2048, .bf16⟩
  | .local _ .vmem, ⟨9, _⟩ => ⟨S1x2048, .f32⟩
  | .local _ .vmem, ⟨10, _⟩ => ⟨S2048x512, .bf16⟩
  | .local _ .vmem, ⟨11, _⟩ => ⟨S1x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S1024x512_S512x1024_1_0 : S1024x512.Transposes [1, 0] S512x1024
  bitsLt_bf16_f32 : FTy.bits .bf16 < FTy.bits .f32
  transposes_S512x1024_S1024x512_1_0 : S512x1024.Transposes [1, 0] S1024x512
  transposes_S2048x512_S512x2048_1_0 : S2048x512.Transposes [1, 0] S512x2048
  transposes_S512x2048_S2048x512_1_0 : S512x2048.Transposes [1, 0] S2048x512
  reducesTo_S1024x512_S1024_d1 : S1024x512.ReducesTo [1] S1024
  h_S_ : 0 < S_.numel
  bcast_S1024_S1x1024_1 : S1024.BroadcastsInDim S1x1024 (![1] : Fin 1 → Fin S1x1024.rank)
  reducesTo_S512x1024_S512_d1 : S512x1024.ReducesTo [1] S512
  bcast_S512_S1x512_1 : S512.BroadcastsInDim S1x512 (![1] : Fin 1 → Fin S1x512.rank)
  bcast_S_S1024 : S_.BroadcastsInDim S1024 (![] : Fin 0 → Fin S1024.rank)
  bcast_S_S512 : S_.BroadcastsInDim S512 (![] : Fin 0 → Fin S512.rank)
  bcast_S2048_S1x2048_1 : S2048.BroadcastsInDim S1x2048 (![1] : Fin 1 → Fin S1x2048.rank)
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S256x1_S256x1024 : S256x1.Broadcasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  broadcasts_S256x1_S256x512 : S256x1.Broadcasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S256x512_S512x1024_S256x1024_1_0_0_1_n_n_wf : DotDims.WF S256x512 S512x1024 S256x1024 [1] [0] [0] [1] [] []
  dot_S256x1024_S1024x512_S256x512_1_0_0_1_n_n_wf : DotDims.WF S256x1024 S1024x512 S256x512 [1] [0] [0] [1] [] []
  dot_S256x512_S512x2048_S256x2048_1_0_0_1_n_n_wf : DotDims.WF S256x512 S512x2048 S256x2048 [1] [0] [0] [1] [] []
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S512x2048.size a
  hwx0_7 : ∀ i : grid0.Coords, EltTy.bits .bf16 = 32 ∨ (Rect.block (s := S512x2048) S512x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S2048x512.size a
  hwx0_9 : ∀ i : grid0.Coords, EltTy.bits .bf16 = 32 ∨ (Rect.block (s := S2048x512) S2048x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S8192x512.size a
  hwx0_11 : ∀ i : grid0.Coords, EltTy.bits .f32 = 32 ∨ (Rect.block (s := S8192x512) S256x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x512.size a ≤ S8192x512.size a
  hwx0_12 : ∀ i : grid0.Coords, EltTy.bits .f32 = 32 ∨ (Rect.block (s := S8192x512) S256x512.size (cc0_transform_12 i) (hinb0_12 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S2048x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24_0) S256x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v24_1) S256x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x512 : Shape := ⟨2, ![8192, 512]⟩
abbrev S1024x512 : Shape := ⟨2, ![1024, 512]⟩
abbrev S1024 : Shape := ⟨1, ![1024]⟩
abbrev S512x1024 : Shape := ⟨2, ![512, 1024]⟩
abbrev S512 : Shape := ⟨1, ![512]⟩
abbrev S2048x512 : Shape := ⟨2, ![2048, 512]⟩
abbrev S2048 : Shape := ⟨1, ![2048]⟩
abbrev S512x2048 : Shape := ⟨2, ![512, 2048]⟩
abbrev S_ : Shape := ⟨0, ![]⟩
abbrev S8192 : Shape := ⟨1, ![8192]⟩
abbrev S8192x1 : Shape := ⟨2, ![8192, 1]⟩
abbrev S8192x1024 : Shape := ⟨2, ![8192, 1024]⟩
abbrev S1x1024 : Shape := ⟨2, ![1, 1024]⟩
abbrev S1x512 : Shape := ⟨2, ![1, 512]⟩
abbrev S8192x2048 : Shape := ⟨2, ![8192, 2048]⟩
abbrev S1x2048 : Shape := ⟨2, ![1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024, .f32⟩
  | .hbm, ⟨3, _⟩ => ⟨S512x1024, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S512x2048, .f32⟩
  | .hbm, ⟨8, _⟩ => ⟨S512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S512x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x512, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S1024x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S512x1024, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S512, .f32⟩
  | .hbm, ⟨57, _⟩ => ⟨S1x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S512x2048, .f32⟩
  | .hbm, ⟨62, _⟩ => ⟨S8192x2048, .f32⟩
  | .hbm, ⟨63, _⟩ => ⟨S1x2048, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S8192x2048, .f32⟩
  | .hbm, ⟨68, _⟩ => ⟨S8192x2048, .f32⟩
  | .hbm, ⟨69, _⟩ => ⟨S2048x512, .f32⟩
  | .hbm, ⟨70, _⟩ => ⟨S8192x512, .f32⟩
  | .hbm, ⟨71, _⟩ => ⟨S1x512, .f32⟩
  | .hbm, ⟨72, _⟩ => ⟨S8192x512, .f32⟩
  | .hbm, ⟨73, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S1024x512_S512x1024_1_0 : S1024x512.Transposes [1, 0] S512x1024
  bcast_S_S8192x1024 : S_.BroadcastsInDim S8192x1024 (![] : Fin 0 → Fin S8192x1024.rank)
  bcast_S8192x1_S8192x1024_0_1 : S8192x1.BroadcastsInDim S8192x1024 (![0, 1] : Fin 2 → Fin S8192x1024.rank)
  reducesTo_S1024x512_S1024_d1 : S1024x512.ReducesTo [1] S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  transposes_S512x1024_S1024x512_1_0 : S512x1024.Transposes [1, 0] S1024x512
  bcast_S_S8192x512 : S_.BroadcastsInDim S8192x512 (![] : Fin 0 → Fin S8192x512.rank)
  bcast_S8192x1_S8192x512_0_1 : S8192x1.BroadcastsInDim S8192x512 (![0, 1] : Fin 2 → Fin S8192x512.rank)
  reducesTo_S512x1024_S512_d1 : S512x1024.ReducesTo [1] S512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S2048x512_S512x2048_1_0 : S2048x512.Transposes [1, 0] S512x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  transposes_S512x2048_S2048x512_1_0 : S512x2048.Transposes [1, 0] S2048x512
  dot_S8192x512_S512x1024_S8192x1024_1_0_0_1_n_n_wf : DotDims.WF S8192x512 S512x1024 S8192x1024 [1] [0] [0] [1] [] []
  dot_S8192x1024_S1024x512_S8192x512_1_0_0_1_n_n_wf : DotDims.WF S8192x1024 S1024x512 S8192x512 [1] [0] [0] [1] [] []
  dot_S8192x512_S512x2048_S8192x2048_1_0_0_1_n_n_wf : DotDims.WF S8192x512 S512x2048 S8192x2048 [1] [0] [0] [1] [] []
  dot_S8192x2048_S2048x512_S8192x512_1_0_0_1_n_n_wf : DotDims.WF S8192x2048 S2048x512 S8192x512 [1] [0] [0] [1] [] []

variable [Facts₀]

def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf
def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf

class Facts : Prop extends Facts₀ where

variable [Facts]
-- ==== Proof.Network.lean ====
/-
  The mathematics of the two-layer Gaussian network with a ReLU relation head, row by row, on the
  extended reals.

  A Gaussian unit with centre `c` and width `σ` sends a row `x` to `exp (-‖x - c‖² / σ²)`, the squared
  distance expanded as `Σ x² - 2·Σ x·c + Σ c²` and clamped at zero from below.  Two such layers
  (512 → 1024 → 512) give the features; `max (features · W1ᵀ + b1) 0 · W2ᵀ + b2` gives the enhanced output.

  Two spellings of one unit are set side by side: the quotient by `σ²` itself, and the product with a
  reciprocal `1 / σ²` taken beforehand.  They agree whenever `σ² ≠ 0` (`gaussMul_inv_eq_gaussDiv`); at
  `σ² = 0` they do not (a zero distance gives `0·⊤ = 0` on one side and the junk value of `0 / 0` on the other),
  which is why the widths are assumed nonzero.
-/
import Idealize.ShloMosaic.PureOps.Ideal
import Idealize.ShloMosaic.PureOps.Ideal.Laws
import Idealize.ShloMosaic.Lib.ValueIdx

noncomputable section

namespace Cert.DualGaussian

open Idealize.ShloMosaic Idealize.ShloMosaic.ValueIdx

/-- The f32 word of `2.0`, never evaluated: both programs carry the same word. -/
abbrev two : EReal := Ideal.ofBits .f32 0x40000000#32

/-- `‖x - c‖²` expanded, with the centre's squared norm `csq` supplied. -/
def sqdist {K : ℕ} (x c : Fin K → EReal) (csq : EReal) : EReal :=
  ((∑ i, x i * x i) - two * ∑ i, x i * c i) + csq

/-- One Gaussian unit, the clamped distance negated and MULTIPLIED by a supplied reciprocal width. -/
def gaussMul {K : ℕ} (x c : Fin K → EReal) (csq inv : EReal) : EReal :=
  Ideal.exp ((0 - max (sqdist x c csq) 0) * inv)

/-- One Gaussian unit, the clamped distance negated and DIVIDED by the squared width. -/
def gaussDiv {K : ℕ} (x c : Fin K → EReal) (csq q : EReal) : EReal :=
  Ideal.exp (Ideal.div (-(max (sqdist x c csq) 0)) q)

/-- Off `q = 0` the product with `1 / q` is the quotient by `q`. -/
theorem gaussMul_inv_eq_gaussDiv {K : ℕ} (x c : Fin K → EReal) (csq q : EReal) (hq : q ≠ 0) :
    gaussMul x c csq (Ideal.div 1 q) = gaussDiv x c csq q := by
  unfold gaussMul gaussDiv Ideal.div
  rw [if_neg hq, if_neg hq, one_mul, zero_sub]

/-! ## The network over the argument arrays, one input row at a time -/

section Reference

variable (C1 : (⟨2, ![1024, 512]⟩ : Shape).Idx → EReal) (S1 : (⟨1, ![1024]⟩ : Shape).Idx → EReal)
  (C2 : (⟨2, ![512, 1024]⟩ : Shape).Idx → EReal) (S2 : (⟨1, ![512]⟩ : Shape).Idx → EReal)
  (W1 : (⟨2, ![2048, 512]⟩ : Shape).Idx → EReal) (B1 : (⟨1, ![2048]⟩ : Shape).Idx → EReal)
  (W2 : (⟨2, ![512, 2048]⟩ : Shape).Idx → EReal) (B2 : (⟨1, ![512]⟩ : Shape).Idx → EReal)

/-- First layer: unit `k` of 1024 on an input row of 512. -/
def hRow (xr : Fin 512 → EReal) (k : Fin 1024) : EReal :=
  gaussDiv xr (fun i => C1 (ix2 k i)) (∑ i : Fin 512, C1 (ix2 k i) * C1 (ix2 k i)) (S1 (ix1 k) * S1 (ix1 k))

/-- Second layer: unit `j` of 512 on the first layer's row of 1024. -/
def featRow (xr : Fin 512 → EReal) (j : Fin 512) : EReal :=
  gaussDiv (hRow C1 S1 xr) (fun k => C2 (ix2 j k)) (∑ k : Fin 1024, C2 (ix2 j k) * C2 (ix2 j k)) (S2 (ix1 j) * S2 (ix1 j))

/-- The relation head's hidden row: `max (features · W1ᵀ + b1) 0`. -/
def hidRow (xr : Fin 512 → EReal) (n : Fin 2048) : EReal :=
  max ((∑ j : Fin 512, featRow C1 S1 C2 S2 xr j * W1 (ix2 n j)) + B1 (ix1 n)) 0

/-- The enhanced row: `hidden · W2ᵀ + b2`. -/
def enhRow (xr : Fin 512 → EReal) (q : Fin 512) : EReal :=
  (∑ n : Fin 2048, hidRow C1 S1 C2 S2 W1 B1 xr n * W2 (ix2 q n)) + B2 (ix1 q)

variable (X : (⟨2, ![8192, 512]⟩ : Shape).Idx → EReal)

/-- The features array: row `i 0` of `X` through both layers, unit `i 1`. -/
def featArr : (⟨2, ![8192, 512]⟩ : Shape).Idx → EReal :=
  fun i => featRow C1 S1 C2 S2 (fun a => X (ix2 (i 0) a)) (i 1)

/-- The enhanced array. -/
def enhArr : (⟨2, ![8192, 512]⟩ : Shape).Idx → EReal :=
  fun i => enhRow C1 S1 C2 S2 W1 B1 W2 B2 (fun a => X (ix2 (i 0) a)) (i 1)

end Reference

/-! ## The same network over PREPARED parameters

The centres and weights transposed, the centres' squared norms and the reciprocal squared widths taken beforehand and laid
out as one-row matrices. -/

section Prepared

variable (c1t : (⟨2, ![512, 1024]⟩ : Shape).Idx → EReal) (c1sq inv1 : (⟨2, ![1, 1024]⟩ : Shape).Idx → EReal)
  (c2t : (⟨2, ![1024, 512]⟩ : Shape).Idx → EReal) (c2sq inv2 : (⟨2, ![1, 512]⟩ : Shape).Idx → EReal)
  (w1t : (⟨2, ![512, 2048]⟩ : Shape).Idx → EReal) (b1 : (⟨2, ![1, 2048]⟩ : Shape).Idx → EReal)
  (w2t : (⟨2, ![2048, 512]⟩ : Shape).Idx → EReal) (b2 : (⟨2, ![1, 512]⟩ : Shape).Idx → EReal)

def hRowP (xr : Fin 512 → EReal) (k : Fin 1024) : EReal :=
  gaussMul xr (fun i => c1t (ix2 i k)) (c1sq (ix2 0 k)) (inv1 (ix2 0 k))

def featRowP (xr : Fin 512 → EReal) (j : Fin 512) : EReal :=
  gaussMul (hRowP c1t c1sq inv1 xr) (fun k => c2t (ix2 k j)) (c2sq (ix2 0 j)) (inv2 (ix2 0 j))

def hidRowP (xr : Fin 512 → EReal) (n : Fin 2048) : EReal :=
  max ((∑ j : Fin 512, featRowP c1t c1sq inv1 c2t c2sq inv2 xr j * w1t (ix2 j n)) + b1 (ix2 0 n)) 0

def enhRowP (xr : Fin 512 → EReal) (q : Fin 512) : EReal :=
  (∑ n : Fin 2048, hidRowP c1t c1sq inv1 c2t c2sq inv2 w1t b1 xr n * w2t (ix2 n q)) + b2 (ix2 0 q)

end Prepared

/-! ## Prepared from the arguments: the two agree when the widths are nonzero -/

section Bridge

variable (C1 : (⟨2, ![1024, 512]⟩ : Shape).Idx → EReal) (S1 : (⟨1, ![1024]⟩ : Shape).Idx → EReal)
  (C2 : (⟨2, ![512, 1024]⟩ : Shape).Idx → EReal) (S2 : (⟨1, ![512]⟩ : Shape).Idx → EReal)
  (W1 : (⟨2, ![2048, 512]⟩ : Shape).Idx → EReal) (B1 : (⟨1, ![2048]⟩ : Shape).Idx → EReal)
  (W2 : (⟨2, ![512, 2048]⟩ : Shape).Idx → EReal) (B2 : (⟨1, ![512]⟩ : Shape).Idx → EReal)
  (c1t : (⟨2, ![512, 1024]⟩ : Shape).Idx → EReal) (c1sq inv1 : (⟨2, ![1, 1024]⟩ : Shape).Idx → EReal)
  (c2t : (⟨2, ![1024, 512]⟩ : Shape).Idx → EReal) (c2sq inv2 : (⟨2, ![1, 512]⟩ : Shape).Idx → EReal)
  (w1t : (⟨2, ![512, 2048]⟩ : Shape).Idx → EReal) (b1 : (⟨2, ![1, 2048]⟩ : Shape).Idx → EReal)
  (w2t : (⟨2, ![2048, 512]⟩ : Shape).Idx → EReal) (b2 : (⟨2, ![1, 512]⟩ : Shape).Idx → EReal)

/-- What "prepared from the arguments" means, entry by entry. -/
structure Prepared : Prop where
  c1t_eq : ∀ (i : Fin 512) (k : Fin 1024), c1t (ix2 i k) = C1 (ix2 k i)
  c1sq_eq : ∀ k : Fin 1024, c1sq (ix2 0 k) = ∑ i : Fin 512, C1 (ix2 k i) * C1 (ix2 k i)
  inv1_eq : ∀ k : Fin 1024, inv1 (ix2 0 k) = Ideal.div 1 (S1 (ix1 k) * S1 (ix1 k))
  c2t_eq : ∀ (k : Fin 1024) (j : Fin 512), c2t (ix2 k j) = C2 (ix2 j k)
  c2sq_eq : ∀ j : Fin 512, c2sq (ix2 0 j) = ∑ k : Fin 1024, C2 (ix2 j k) * C2 (ix2 j k)
  inv2_eq : ∀ j : Fin 512, inv2 (ix2 0 j) = Ideal.div 1 (S2 (ix1 j) * S2 (ix1 j))
  w1t_eq : ∀ (j : Fin 512) (n : Fin 2048), w1t (ix2 j n) = W1 (ix2 n j)
  b1_eq : ∀ n : Fin 2048, b1 (ix2 0 n) = B1 (ix1 n)
  w2t_eq : ∀ (n : Fin 2048) (q : Fin 512), w2t (ix2 n q) = W2 (ix2 q n)
  b2_eq : ∀ q : Fin 512, b2 (ix2 0 q) = B2 (ix1 q)

variable {C1 S1 C2 S2 W1 B1 W2 B2 c1t c1sq inv1 c2t c2sq inv2 w1t b1 w2t b2}

theorem hRowP_eq (hp : Prepared C1 S1 C2 S2 W1 B1 W2 B2 c1t c1sq inv1 c2t c2sq inv2 w1t b1 w2t b2)
    (h1 : ∀ k, S1 (ix1 k) ≠ 0) (xr : Fin 512 → EReal) :
    hRowP c1t c1sq inv1 xr = hRow C1 S1 xr := by
  funext k
  unfold hRowP hRow
  rw [hp.c1sq_eq, hp.inv1_eq, gaussMul_inv_eq_gaussDiv _ _ _ _ (mul_self_ne_zero.mpr (h1 k))]
  simp only [hp.c1t_eq]

theorem featRowP_eq (hp : Prepared C1 S1 C2 S2 W1 B1 W2 B2 c1t c1sq inv1 c2t c2sq inv2 w1t b1 w2t b2)
    (h1 : ∀ k, S1 (ix1 k) ≠ 0) (h2 : ∀ j, S2 (ix1 j) ≠ 0) (xr : Fin 512 → EReal) :
    featRowP c1t c1sq inv1 c2t c2sq inv2 xr = featRow C1 S1 C2 S2 xr := by
  funext j
  unfold featRowP featRow
  rw [hRowP_eq hp h1, hp.c2sq_eq, hp.inv2_eq, gaussMul_inv_eq_gaussDiv _ _ _ _ (mul_self_ne_zero.mpr (h2 j))]
  simp only [hp.c2t_eq]

theorem hidRowP_eq (hp : Prepared C1 S1 C2 S2 W1 B1 W2 B2 c1t c1sq inv1 c2t c2sq inv2 w1t b1 w2t b2)
    (h1 : ∀ k, S1 (ix1 k) ≠ 0) (h2 : ∀ j, S2 (ix1 j) ≠ 0) (xr : Fin 512 → EReal) :
    hidRowP c1t c1sq inv1 c2t c2sq inv2 w1t b1 xr = hidRow C1 S1 C2 S2 W1 B1 xr := by
  funext n
  unfold hidRowP hidRow
  rw [featRowP_eq hp h1 h2, hp.b1_eq]
  simp only [hp.w1t_eq]

theorem enhRowP_eq (hp : Prepared C1 S1 C2 S2 W1 B1 W2 B2 c1t c1sq inv1 c2t c2sq inv2 w1t b1 w2t b2)
    (h1 : ∀ k, S1 (ix1 k) ≠ 0) (h2 : ∀ j, S2 (ix1 j) ≠ 0) (xr : Fin 512 → EReal) :
    enhRowP c1t c1sq inv1 c2t c2sq inv2 w1t b1 w2t b2 xr = enhRow C1 S1 C2 S2 W1 B1 W2 B2 xr := by
  funext q
  unfold enhRowP enhRow
  rw [hidRowP_eq hp h1 h2, hp.b2_eq]
  simp only [hp.w2t_eq]

end Bridge

end Cert.DualGaussian

end
-- ==== Proof.RefNetwork.lean ====
/-
  The reference program's two results are the network's arrays.

  Each host operation of the reference is read at an index; composing the reads, one stage per layer, gives
  first the Gaussian layer of 1024 units on a row of the input, then the second Gaussian layer of 512 units
  (the features), then the hidden row `max (features · W1ᵀ + b1) 0` and the enhanced row `hidden · W2ᵀ + b2`.
  Every stage reads the input only through row `i 0` of `X`; the first layer's row enters the second layer
  twice, once in its squared norm and once in the dot product with a centre.
-/
import proofs.«131934_j50946902065338_1_alg».proof.Proof.Gen.ReferenceIdeal.Read
import proofs.«131934_j50946902065338_1_alg».proof.Proof.Network

noncomputable section

namespace Cert.ReferenceIdeal.RefValue

open Cert.ReferenceIdeal Cert.ReferenceIdeal.Read Cert.DualGaussian
open Idealize.ShloMosaic Idealize.ShloMosaic.ValueIdx

/-! ## First layer: the composed index maps, then the value -/

theorem e_xrow (i : S8192x1024.Idx) (k : Fin 512) :
    idx_main_v1 (idx_main_v2 (idx_main_v7 i)) k = ix2 (n0 := 8192) (n1 := 512) (i 0) k :=
  funext fun a => Fin.ext (by match a with | ⟨0, _⟩ => rfl | ⟨1, _⟩ => rfl)
theorem e_xdot (i : S8192x1024.Idx) (k : Fin 512) : lidx_main_v4 i k = ix2 (n0 := 8192) (n1 := 512) (i 0) k :=
  funext fun a => Fin.ext (by match a with | ⟨0, _⟩ => rfl | ⟨1, _⟩ => rfl)
theorem e_c1dot (i : S8192x1024.Idx) (k : Fin 512) : idx_main_v3 (ridx_main_v4 i k) = ix2 (n0 := 1024) (n1 := 512) (i 1) k :=
  funext fun a => Fin.ext (by match a with | ⟨0, _⟩ => rfl | ⟨1, _⟩ => rfl)
theorem e_c1row (i : S8192x1024.Idx) (k : Fin 512) :
    idx_main_v10 (idx_main_v11 (idx_main_v12 i)) k = ix2 (n0 := 1024) (n1 := 512) (i 1) k :=
  funext fun a => Fin.ext (by match a with | ⟨0, _⟩ => rfl | ⟨1, _⟩ => rfl)
theorem e_s1 (i : S8192x1024.Idx) : idx_main_v18 (idx_main_v19 i) = ix1 (n := 1024) (i 1) :=
  funext fun a => Fin.ext (by match a with | ⟨0, _⟩ => rfl)

/-- The first layer at an index: unit `i 1` on row `i 0` of the input. -/
theorem h_eq (X : (⟨S8192x512, .f32⟩ : BufTy).Contents (Elt Ideal))
    (C1 : (⟨S1024x512, .f32⟩ : BufTy).Contents (Elt Ideal))
    (S1 : (⟨S1024, .f32⟩ : BufTy).Contents (Elt Ideal)) (i : S8192x1024.Idx) :
    val_main_v21 (F := Ideal) X C1 S1 i = hRow C1 S1 (fun a => X (ix2 (i 0) a)) (i 1) := by
  simp only [val_main_v21_apply, val_main_v20_apply, val_main_v19_apply, val_main_v18_apply, val_main_v17_apply,
    val_main_v16_apply, val_main_v15_apply, val_main_v14_apply, val_main_cst_2_apply, val_main_v13_apply,
    val_main_v12_apply, val_main_v11_apply, val_main_v10_apply, val_main_cst_1_apply, val_main_v9_apply,
    val_main_v8_apply, val_main_v7_apply, val_main_v6_apply, val_main_v5_apply, val_main_cst_0_apply,
    val_main_v4_apply, val_main_v3_apply, val_main_v2_apply, val_main_v1_apply, val_main_cst_apply, val_main_v0_apply]
  simp only [e_xrow, e_xdot, e_c1dot, e_c1row, e_s1, Ideal.hostUnary_exp_def, Ideal.hostDivf_def, Ideal.hostNegf_def,
    Ideal.negf_def, Ideal.maximumf_def, Ideal.addf_def, Ideal.subf_def, Ideal.mulf_def, Ideal.ofBits_def,
    Ideal.ofBits_zero_f32, zero_add]
  rfl

/-! ## Second layer: the features -/

theorem e_hrow (i : S8192x512.Idx) (k : Fin 1024) :
    idx_main_v23 (idx_main_v24 (idx_main_v29 i)) k = ix2 (n0 := 8192) (n1 := 1024) (i 0) k :=
  funext fun a => Fin.ext (by match a with | ⟨0, _⟩ => rfl | ⟨1, _⟩ => rfl)
theorem e_hdot (i : S8192x512.Idx) (k : Fin 1024) : lidx_main_v26 i k = ix2 (n0 := 8192) (n1 := 1024) (i 0) k :=
  funext fun a => Fin.ext (by match a with | ⟨0, _⟩ => rfl | ⟨1, _⟩ => rfl)
theorem e_c2dot (i : S8192x512.Idx) (k : Fin 1024) : idx_main_v25 (ridx_main_v26 i k) = ix2 (n0 := 512) (n1 := 1024) (i 1) k :=
  funext fun a => Fin.ext (by match a with | ⟨0, _⟩ => rfl | ⟨1, _⟩ => rfl)
theorem e_c2row (i : S8192x512.Idx) (k : Fin 1024) :
    idx_main_v32 (idx_main_v33 (idx_main_v34 i)) k = ix2 (n0 := 512) (n1 := 1024) (i 1) k :=
  funext fun a => Fin.ext (by match a with | ⟨0, _⟩ => rfl | ⟨1, _⟩ => rfl)
theorem e_s2 (i : S8192x512.Idx) : idx_main_v40 (idx_main_v41 i) = ix1 (n := 512) (i 1) :=
  funext fun a => Fin.ext (by match a with | ⟨0, _⟩ => rfl)

/-- The features at an index: unit `i 1` of the second layer on the first layer's row of row `i 0`. -/
theorem feat_eq (X : (⟨S8192x512, .f32⟩ : BufTy).Contents (Elt Ideal))
    (C1 : (⟨S1024x512, .f32⟩ : BufTy).Contents (Elt Ideal))
    (S1 : (⟨S1024, .f32⟩ : BufTy).Contents (Elt Ideal))
    (C2 : (⟨S512x1024, .f32⟩ : BufTy).Contents (Elt Ideal))
    (S2 : (⟨S512, .f32⟩ : BufTy).Contents (Elt Ideal)) (i : S8192x512.Idx) :
    val_main_v43 (F := Ideal) X C1 S1 C2 S2 i = featRow C1 S1 C2 S2 (fun a => X (ix2 (i 0) a)) (i 1) := by
  simp only [val_main_v43_apply, val_main_v42_apply, val_main_v41_apply, val_main_v40_apply, val_main_v39_apply,
    val_main_v38_apply, val_main_v37_apply, val_main_v36_apply, val_main_cst_6_apply, val_main_v35_apply,
    val_main_v34_apply, val_main_v33_apply, val_main_v32_apply, val_main_cst_5_apply, val_main_v31_apply,
    val_main_v30_apply, val_main_v29_apply, val_main_v28_apply, val_main_v27_apply, val_main_cst_4_apply,
    val_main_v26_apply, val_main_v25_apply, val_main_v24_apply, val_main_v23_apply, val_main_cst_3_apply,
    val_main_v22_apply]
  have hk : ∀ k : Fin 1024, val_main_v21 (F := Ideal) X C1 S1 (ix2 (n0 := 8192) (n1 := 1024) (i 0) k)
      = hRow C1 S1 (fun a => X (ix2 (n0 := 8192) (n1 := 512) (i 0) a)) k :=
    fun k => h_eq X C1 S1 (ix2 (i 0) k)
  simp only [e_hrow, e_hdot, e_c2dot, e_c2row, e_s2, hk, Ideal.hostUnary_exp_def, Ideal.hostDivf_def,
    Ideal.hostNegf_def, Ideal.negf_def, Ideal.maximumf_def, Ideal.addf_def, Ideal.subf_def, Ideal.mulf_def,
    Ideal.ofBits_def, Ideal.ofBits_zero_f32, zero_add]
  rfl

/-! ## The relation head's hidden row -/

theorem e_fdot (i : S8192x2048.Idx) (k : Fin 512) : lidx_main_v45 i k = ix2 (n0 := 8192) (n1 := 512) (i 0) k :=
  funext fun a => Fin.ext (by match a with | ⟨0, _⟩ => rfl | ⟨1, _⟩ => rfl)
theorem e_w1dot (i : S8192x2048.Idx) (k : Fin 512) : idx_main_v44 (ridx_main_v45 i k) = ix2 (n0 := 2048) (n1 := 512) (i 1) k :=
  funext fun a => Fin.ext (by match a with | ⟨0, _⟩ => rfl | ⟨1, _⟩ => rfl)
theorem e_b1 (i : S8192x2048.Idx) : idx_main_v46 (idx_main_v47 i) = ix1 (n := 2048) (i 1) :=
  funext fun a => Fin.ext (by match a with | ⟨0, _⟩ => rfl)

theorem hid_eq (X : (⟨S8192x512, .f32⟩ : BufTy).Contents (Elt Ideal))
    (C1 : (⟨S1024x512, .f32⟩ : BufTy).Contents (Elt Ideal))
    (S1 : (⟨S1024, .f32⟩ : BufTy).Contents (Elt Ideal))
    (C2 : (⟨S512x1024, .f32⟩ : BufTy).Contents (Elt Ideal))
    (S2 : (⟨S512, .f32⟩ : BufTy).Contents (Elt Ideal))
    (W1 : (⟨S2048x512, .f32⟩ : BufTy).Contents (Elt Ideal))
    (B1 : (⟨S2048, .f32⟩ : BufTy).Contents (Elt Ideal)) (i : S8192x2048.Idx) :
    val_main_v50 (F := Ideal) X C1 S1 C2 S2 W1 B1 i
      = hidRow C1 S1 C2 S2 W1 B1 (fun a => X (ix2 (i 0) a)) (i 1) := by
  simp only [val_main_v50_apply, val_main_v49_apply, val_main_cst_7_apply, val_main_v48_apply, val_main_v47_apply,
    val_main_v46_apply, val_main_v45_apply, val_main_v44_apply]
  have hj : ∀ j : Fin 512, val_main_v43 (F := Ideal) X C1 S1 C2 S2 (ix2 (n0 := 8192) (n1 := 512) (i 0) j)
      = featRow C1 S1 C2 S2 (fun a => X (ix2 (n0 := 8192) (n1 := 512) (i 0) a)) j :=
    fun j => feat_eq X C1 S1 C2 S2 (ix2 (i 0) j)
  simp only [e_fdot, e_w1dot, e_b1, hj, Ideal.maximumf_def, Ideal.addf_def, Ideal.ofBits_def,
    Ideal.ofBits_zero_f32]
  rfl

/-! ## The enhanced row -/

theorem e_gdot (i : S8192x512.Idx) (k : Fin 2048) : lidx_main_v52 i k = ix2 (n0 := 8192) (n1 := 2048) (i 0) k :=
  funext fun a => Fin.ext (by match a with | ⟨0, _⟩ => rfl | ⟨1, _⟩ => rfl)
theorem e_w2dot (i : S8192x512.Idx) (k : Fin 2048) : idx_main_v51 (ridx_main_v52 i k) = ix2 (n0 := 512) (n1 := 2048) (i 1) k :=
  funext fun a => Fin.ext (by match a with | ⟨0, _⟩ => rfl | ⟨1, _⟩ => rfl)
theorem e_b2 (i : S8192x512.Idx) : idx_main_v53 (idx_main_v54 i) = ix1 (n := 512) (i 1) :=
  funext fun a => Fin.ext (by match a with | ⟨0, _⟩ => rfl)

theorem enh_eq (X : (⟨S8192x512, .f32⟩ : BufTy).Contents (Elt Ideal))
    (C1 : (⟨S1024x512, .f32⟩ : BufTy).Contents (Elt Ideal))
    (S1 : (⟨S1024, .f32⟩ : BufTy).Contents (Elt Ideal))
    (C2 : (⟨S512x1024, .f32⟩ : BufTy).Contents (Elt Ideal))
    (S2 : (⟨S512, .f32⟩ : BufTy).Contents (Elt Ideal))
    (W1 : (⟨S2048x512, .f32⟩ : BufTy).Contents (Elt Ideal))
    (B1 : (⟨S2048, .f32⟩ : BufTy).Contents (Elt Ideal))
    (W2 : (⟨S512x2048, .f32⟩ : BufTy).Contents (Elt Ideal))
    (B2 : (⟨S512, .f32⟩ : BufTy).Contents (Elt Ideal)) (i : S8192x512.Idx) :
    val_main_v55 (F := Ideal) X C1 S1 C2 S2 W1 B1 W2 B2 i
      = enhRow C1 S1 C2 S2 W1 B1 W2 B2 (fun a => X (ix2 (i 0) a)) (i 1) := by
  simp only [val_main_v55_apply, val_main_v54_apply, val_main_v53_apply, val_main_v52_apply, val_main_v51_apply]
  have hn : ∀ n : Fin 2048, val_main_v50 (F := Ideal) X C1 S1 C2 S2 W1 B1 (ix2 (n0 := 8192) (n1 := 2048) (i 0) n)
      = hidRow C1 S1 C2 S2 W1 B1 (fun a => X (ix2 (n0 := 8192) (n1 := 512) (i 0) a)) n :=
    fun n => hid_eq X C1 S1 C2 S2 W1 B1 (ix2 (i 0) n)
  simp only [e_gdot, e_w2dot, e_b2, hn, Ideal.addf_def]
  rfl

/-! ## The two results as arrays -/

/-- The reference's first result is the features array. -/
theorem features_eq (X : (⟨S8192x512, .f32⟩ : BufTy).Contents (Elt Ideal))
    (C1 : (⟨S1024x512, .f32⟩ : BufTy).Contents (Elt Ideal))
    (S1 : (⟨S1024, .f32⟩ : BufTy).Contents (Elt Ideal))
    (C2 : (⟨S512x1024, .f32⟩ : BufTy).Contents (Elt Ideal))
    (S2 : (⟨S512, .f32⟩ : BufTy).Contents (Elt Ideal)) :
    Cert.ReferenceIdeal.Read.val_main_v43 (F := Ideal) X C1 S1 C2 S2 = Cert.DualGaussian.featArr C1 S1 C2 S2 X :=
  funext fun i => feat_eq X C1 S1 C2 S2 i

/-- The reference's second result is the enhanced array. -/
theorem enhanced_eq (X : (⟨S8192x512, .f32⟩ : BufTy).Contents (Elt Ideal))
    (C1 : (⟨S1024x512, .f32⟩ : BufTy).Contents (Elt Ideal))
    (S1 : (⟨S1024, .f32⟩ : BufTy).Contents (Elt Ideal))
    (C2 : (⟨S512x1024, .f32⟩ : BufTy).Contents (Elt Ideal))
    (S2 : (⟨S512, .f32⟩ : BufTy).Contents (Elt Ideal))
    (W1 : (⟨S2048x512, .f32⟩ : BufTy).Contents (Elt Ideal))
    (B1 : (⟨S2048, .f32⟩ : BufTy).Contents (Elt Ideal))
    (W2 : (⟨S512x2048, .f32⟩ : BufTy).Contents (Elt Ideal))
    (B2 : (⟨S512, .f32⟩ : BufTy).Contents (Elt Ideal)) :
    Cert.ReferenceIdeal.Read.val_main_v55 (F := Ideal) X C1 S1 C2 S2 W1 B1 W2 B2
      = Cert.DualGaussian.enhArr C1 S1 C2 S2 W1 B1 W2 B2 X :=
  funext fun i => enh_eq X C1 S1 C2 S2 W1 B1 W2 B2 i

end Cert.ReferenceIdeal.RefValue

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KernelRows.lean ====
/-
  The kernel body's two stored blocks, read at an index, are the prepared network's rows.

  One grid point holds 256 rows of the input.  Every operation of the body acts row by row: the lane sums
  `Σ x²` and `Σ h²` are per row, each matrix product's row `p` uses row `p` of its left operand only, and the
  parameters enter as one-row matrices spread over the 256 rows.  So entry `(p, j)` of the features block is the
  second Gaussian layer's unit `j` on the first layer's row of the block's row `p`, and entry `(p, q)` of the
  enhanced block the relation head's output `q` on that row.
  The body is cut at its intermediate blocks (first layer `h`; squared-distance part of layer two; hidden row), each
  read at an index by itself.
-/
import proofs.«131934_j50946902065338_1_alg».proof.Proof.Gen.KernelIdeal.Skeleton
import proofs.«131934_j50946902065338_1_alg».proof.Proof.Network
import proofs.«131934_j50946902065338_1_alg».proof.Proof.LibRowOps

noncomputable section

namespace Cert.KernelIdeal.RowValue

open Cert.KernelIdeal Cert.KernelIdeal.Gen Idealize.ShloMosaic Idealize.ShloMosaic.ValueIdx Cert.DualGaussian Cert.RowOps

/-! ## The body's intermediate blocks -/

/-- The first layer's block `h = exp (-(max d² 0) · inv1)`, from the input block and the layer's prepared parameters. -/
def hBlk (v0 : Vec Ideal S256x512 .f32) (v5 : Vec Ideal S512x1024 .bf16) (v12 : Vec Ideal S1x1024 .f32) (v20 : Vec Ideal S1x1024 .f32) : FVec Ideal S256x1024 .f32 :=
  have v1 : FVec Ideal S256x512 .bf16 := truncf .bf16 v0 bitsLt_bf16_f32
  have v2 : FVec Ideal S256x512 .f32 := mulf v0 v0
  have v3 : FVec Ideal S256 .f32 := multiReduction .add [1] S256 v2 0x00000000#32 reduces_S256x512_S256 (.inl rfl) rfl
  have v4 : FVec Ideal S256x1 .f32 := shapeCast S256x1 v3 shapeCasts_S256_S256x1
  have v6 : FVec Ideal S512x1024 .bf16 := shapeCast S512x1024 v5 shapeCasts_S512x1024_S512x1024
  have cst_3 : FVec Ideal S256x1024 .f32 := constant S256x1024 .f32 0x00000000#32
  have v7 : FVec Ideal S256x1024 .f32 := matmul dot_S256x512_S512x1024_S256x1024_1_0_0_1_n_n none v1 v6 cst_3
  have cst_4 : Ideal .f32 := Scalar.ofBits .f32 0x40000000#32
  have v8 : FVec Ideal S256x1024 .f32 := broadcast S256x1024 cst_4
  have v9 : FVec Ideal S256x1024 .f32 := mulf v8 v7
  have v10 : FVec Ideal S256x1024 .f32 := broadcastTo S256x1024 v4 broadcasts_S256x1_S256x1024
  have v11 : FVec Ideal S256x1024 .f32 := subf v10 v9
  have v13 : FVec Ideal S1x1024 .f32 := shapeCast S1x1024 v12 shapeCasts_S1x1024_S1x1024
  have v14 : FVec Ideal S256x1024 .f32 := broadcastTo S256x1024 v13 broadcasts_S1x1024_S256x1024
  have v15 : FVec Ideal S256x1024 .f32 := addf v11 v14
  have cst_7 : Ideal .f32 := Scalar.ofBits .f32 0x00000000#32
  have v16 : FVec Ideal S256x1024 .f32 := broadcast S256x1024 cst_7
  have v17 : FVec Ideal S256x1024 .f32 := maximumf v15 v16
  have cst_8 : Ideal .f32 := Scalar.ofBits .f32 0x00000000#32
  have v18 : FVec Ideal S256x1024 .f32 := broadcast S256x1024 cst_8
  have v19 : FVec Ideal S256x1024 .f32 := subf v18 v17
  have v21 : FVec Ideal S1x1024 .f32 := shapeCast S1x1024 v20 shapeCasts_S1x1024_S1x1024
  have v22 : FVec Ideal S256x1024 .f32 := broadcastTo S256x1024 v21 broadcasts_S1x1024_S256x1024
  have v23 : FVec Ideal S256x1024 .f32 := mulf v19 v22
  have v24 : FVec Ideal S256x1024 .f32 := exp v23
  v24

/-- The second layer's `Σ h² - 2·h·c2ᵀ` from the first layer's block. -/
def distBlk (v24 : FVec Ideal S256x1024 .f32) (v29 : Vec Ideal S1024x512 .bf16) : FVec Ideal S256x512 .f32 :=
  have v25 : FVec Ideal S256x1024 .bf16 := truncf .bf16 v24 bitsLt_bf16_f32
  have v26 : FVec Ideal S256x1024 .f32 := mulf v24 v24
  have v27 : FVec Ideal S256 .f32 := multiReduction .add [1] S256 v26 0x00000000#32 reduces_S256x1024_S256 (.inl rfl) rfl
  have v28 : FVec Ideal S256x1 .f32 := shapeCast S256x1 v27 shapeCasts_S256_S256x1
  have v30 : FVec Ideal S1024x512 .bf16 := shapeCast S1024x512 v29 shapeCasts_S1024x512_S1024x512
  have cst_14 : FVec Ideal S256x512 .f32 := constant S256x512 .f32 0x00000000#32
  have v31 : FVec Ideal S256x512 .f32 := matmul dot_S256x1024_S1024x512_S256x512_1_0_0_1_n_n none v25 v30 cst_14
  have cst_15 : Ideal .f32 := Scalar.ofBits .f32 0x40000000#32
  have v32 : FVec Ideal S256x512 .f32 := broadcast S256x512 cst_15
  have v33 : FVec Ideal S256x512 .f32 := mulf v32 v31
  have v34 : FVec Ideal S256x512 .f32 := broadcastTo S256x512 v28 broadcasts_S256x1_S256x512
  have v35 : FVec Ideal S256x512 .f32 := subf v34 v33
  v35

/-- The relation head's hidden block `max (features · w1t + b1) 0`. -/
def hidBlk (v48 : FVec Ideal S256x512 .f32) (v51 : Vec Ideal S512x2048 .bf16) (v54 : Vec Ideal S1x2048 .f32) : FVec Ideal S256x2048 .f32 :=
  have v50 : FVec Ideal S256x512 .bf16 := truncf .bf16 v48 bitsLt_bf16_f32
  have v52 : FVec Ideal S512x2048 .bf16 := shapeCast S512x2048 v51 shapeCasts_S512x2048_S512x2048
  have cst_26 : FVec Ideal S256x2048 .f32 := constant S256x2048 .f32 0x00000000#32
  have v53 : FVec Ideal S256x2048 .f32 := matmul dot_S256x512_S512x2048_S256x2048_1_0_0_1_n_n none v50 v52 cst_26
  have v55 : FVec Ideal S1x2048 .f32 := shapeCast S1x2048 v54 shapeCasts_S1x2048_S1x2048
  have v56 : FVec Ideal S256x2048 .f32 := broadcastTo S256x2048 v55 broadcasts_S1x2048_S256x2048
  have v57 : FVec Ideal S256x2048 .f32 := addf v53 v56
  have cst_29 : Ideal .f32 := Scalar.ofBits .f32 0x00000000#32
  have v58 : FVec Ideal S256x2048 .f32 := broadcast S256x2048 cst_29
  have v59 : FVec Ideal S256x2048 .f32 := maximumf v57 v58
  v59

/-- The enhanced block `hidden · w2t + b2`. -/
def enhBlk (v59 : FVec Ideal S256x2048 .f32) (v61 : Vec Ideal S2048x512 .bf16) (v64 : Vec Ideal S1x512 .f32) : FVec Ideal S256x512 .f32 :=
  have v60 : FVec Ideal S256x2048 .bf16 := truncf .bf16 v59 bitsLt_bf16_f32
  have v62 : FVec Ideal S2048x512 .bf16 := shapeCast S2048x512 v61 shapeCasts_S2048x512_S2048x512
  have cst_32 : FVec Ideal S256x512 .f32 := constant S256x512 .f32 0x00000000#32
  have v63 : FVec Ideal S256x512 .f32 := matmul dot_S256x2048_S2048x512_S256x512_1_0_0_1_n_n none v60 v62 cst_32
  have v65 : FVec Ideal S1x512 .f32 := shapeCast S1x512 v64 shapeCasts_S1x512_S1x512
  have v66 : FVec Ideal S256x512 .f32 := broadcastTo S256x512 v65 broadcasts_S1x512_S256x512
  have v67 : FVec Ideal S256x512 .f32 := addf v63 v66
  v67

/-- The printed payloads are these pieces composed. -/
theorem pay3_eq (v0 : Vec Ideal S256x512 .f32) (v5 : Vec Ideal S512x1024 .bf16) (v12 v20 : Vec Ideal S1x1024 .f32) (v29 : Vec Ideal S1024x512 .bf16) :
    k0_pay3 (F := Ideal) v0 v5 v12 v20 v29 = distBlk (hBlk v0 v5 v12 v20) v29 := rfl

theorem pay2_eq (v35 v38 : FVec Ideal S256x512 .f32) (v44 : Vec Ideal S1x512 .f32) (v51 : Vec Ideal S512x2048 .bf16) (v54 : Vec Ideal S1x2048 .f32)
    (v61 : Vec Ideal S2048x512 .bf16) (v64 : Vec Ideal S1x512 .f32) :
    k0_pay2 (F := Ideal) v35 v38 v44 v51 v54 v61 v64 = enhBlk (hidBlk (k0_pay1 v35 v38 v44) v51 v54) v61 v64 := rfl

/-! ## The four matrix products at an index -/

theorem mm1_apply (l : FVec Ideal S256x512 .bf16) (r : FVec Ideal S512x1024 .bf16) (p : Fin 256) (k : Fin 1024) :
    matmul dot_S256x512_S512x1024_S256x1024_1_0_0_1_n_n none l r (constant S256x1024 .f32 0x00000000#32) (ix2 p k)
      = ∑ i : Fin 512, l (ix2 p i) * r (ix2 i k) :=
  Cert.RowOps.matmul_apply Facts₀.dot_S256x512_S512x1024_S256x1024_1_0_0_1_n_n_wf none l r p k

theorem mm2_apply (l : FVec Ideal S256x1024 .bf16) (r : FVec Ideal S1024x512 .bf16) (p : Fin 256) (j : Fin 512) :
    matmul dot_S256x1024_S1024x512_S256x512_1_0_0_1_n_n none l r (constant S256x512 .f32 0x00000000#32) (ix2 p j)
      = ∑ k : Fin 1024, l (ix2 p k) * r (ix2 k j) :=
  Cert.RowOps.matmul_apply Facts₀.dot_S256x1024_S1024x512_S256x512_1_0_0_1_n_n_wf none l r p j

theorem mm3_apply (l : FVec Ideal S256x512 .bf16) (r : FVec Ideal S512x2048 .bf16) (p : Fin 256) (n : Fin 2048) :
    matmul dot_S256x512_S512x2048_S256x2048_1_0_0_1_n_n none l r (constant S256x2048 .f32 0x00000000#32) (ix2 p n)
      = ∑ j : Fin 512, l (ix2 p j) * r (ix2 j n) :=
  Cert.RowOps.matmul_apply Facts₀.dot_S256x512_S512x2048_S256x2048_1_0_0_1_n_n_wf none l r p n

theorem mm4_apply (l : FVec Ideal S256x2048 .bf16) (r : FVec Ideal S2048x512 .bf16) (p : Fin 256) (q : Fin 512) :
    matmul dot_S256x2048_S2048x512_S256x512_1_0_0_1_n_n none l r (constant S256x512 .f32 0x00000000#32) (ix2 p q)
      = ∑ n : Fin 2048, l (ix2 p n) * r (ix2 n q) :=
  Cert.RowOps.matmul_apply Facts₀.dot_S256x2048_S2048x512_S256x512_1_0_0_1_n_n_wf none l r p q

/-! ## Each block at an index -/

/-- Entry `(p, k)` of the first layer's block: unit `k` on row `p` of the input block. -/
theorem hBlk_apply (v0 : Vec Ideal S256x512 .f32) (v5 : Vec Ideal S512x1024 .bf16) (v12 v20 : Vec Ideal S1x1024 .f32) (p : Fin 256) (k : Fin 1024) :
    hBlk v0 v5 v12 v20 (ix2 p k) = hRowP v5 v12 v20 (fun i => v0 (ix2 p i)) k := by
  have es := rowSum_spread_apply (mulf v0 v0) 0x00000000#32 reduces_S256x512_S256 (.inl rfl) rfl shapeCasts_S256_S256x1
    broadcasts_S256x1_S256x1024 p k
  unfold hBlk hRowP gaussMul sqdist
  simp only [Idealize.ShloMosaic.exp, mulf_apply, subf_apply, addf_apply, maximumf_apply, broadcast_apply,
    mm1_apply, truncf_apply, shapeCast_self,
    Ideal.exp_def, Ideal.ofBits_def, Ideal.ofBits_zero_f32] at es ⊢
  rw [es, broadcastTo_1b_ab_apply, broadcastTo_1b_ab_apply]

/-- Entry `(p, j)` of the second layer's distance part, from the first layer's block. -/
theorem distBlk_apply (v24 : FVec Ideal S256x1024 .f32) (v29 : Vec Ideal S1024x512 .bf16) (p : Fin 256) (j : Fin 512) :
    distBlk v24 v29 (ix2 p j)
      = (∑ k : Fin 1024, v24 (ix2 p k) * v24 (ix2 p k)) - two * ∑ k : Fin 1024, v24 (ix2 p k) * v29 (ix2 k j) := by
  have es := rowSum_spread_apply (mulf v24 v24) 0x00000000#32 reduces_S256x1024_S256 (.inl rfl) rfl shapeCasts_S256_S256x1
    broadcasts_S256x1_S256x512 p j
  unfold distBlk
  simp only [mulf_apply, subf_apply, broadcast_apply, mm2_apply, truncf_apply, shapeCast_self,
    Ideal.ofBits_def] at es ⊢
  rw [es]

/-- Entry `(p, j)` of the features block. -/
theorem pay1_apply (v35 : FVec Ideal S256x512 .f32) (v36 v44 : Vec Ideal S1x512 .f32) (p : Fin 256) (j : Fin 512) :
    k0_pay1 (F := Ideal) v35 (k0_pay4 v36) v44 (ix2 p j)
      = Ideal.exp ((0 - max (v35 (ix2 p j) + v36 (ix2 0 j)) 0) * v44 (ix2 0 j)) := by
  unfold k0_pay1 k0_pay4
  simp only [Idealize.ShloMosaic.exp, mulf_apply, subf_apply, addf_apply, maximumf_apply, broadcast_apply,
    rowParam_spread_apply, Ideal.exp_def, Ideal.ofBits_def, Ideal.ofBits_zero_f32]

/-- Entry `(p, n)` of the hidden block. -/
theorem hidBlk_apply (v48 : FVec Ideal S256x512 .f32) (v51 : Vec Ideal S512x2048 .bf16) (v54 : Vec Ideal S1x2048 .f32) (p : Fin 256) (n : Fin 2048) :
    hidBlk v48 v51 v54 (ix2 p n) = max ((∑ j : Fin 512, v48 (ix2 p j) * v51 (ix2 j n)) + v54 (ix2 0 n)) 0 := by
  unfold hidBlk
  simp only [addf_apply, maximumf_apply, broadcast_apply, mm3_apply, broadcastTo_1b_ab_apply, truncf_apply, shapeCast_self,
    Ideal.ofBits_def, Ideal.ofBits_zero_f32]

/-- Entry `(p, q)` of the enhanced block. -/
theorem enhBlk_apply (v59 : FVec Ideal S256x2048 .f32) (v61 : Vec Ideal S2048x512 .bf16) (v64 : Vec Ideal S1x512 .f32) (p : Fin 256) (q : Fin 512) :
    enhBlk v59 v61 v64 (ix2 p q) = (∑ n : Fin 2048, v59 (ix2 p n) * v61 (ix2 n q)) + v64 (ix2 0 q) := by
  unfold enhBlk
  simp only [addf_apply, mm4_apply, broadcastTo_1b_ab_apply, truncf_apply, shapeCast_self]

/-! ## The two stored blocks are the prepared network's rows -/

/-- The features block at `(p, j)`. -/
theorem features_apply (v0 : Vec Ideal S256x512 .f32) (v5 : Vec Ideal S512x1024 .bf16) (v12 v20 : Vec Ideal S1x1024 .f32)
    (v29 : Vec Ideal S1024x512 .bf16) (v36 v44 : Vec Ideal S1x512 .f32) (p : Fin 256) (j : Fin 512) :
    k0_pay1 (F := Ideal) (k0_pay3 v0 v5 v12 v20 v29) (k0_pay4 v36) v44 (ix2 p j)
      = featRowP v5 v12 v20 v29 v36 v44 (fun i => v0 (ix2 p i)) j := by
  rw [pay1_apply, pay3_eq, distBlk_apply]
  unfold featRowP gaussMul sqdist
  simp only [hBlk_apply]

/-- The enhanced block at `(p, q)`. -/
theorem enhanced_apply (v0 : Vec Ideal S256x512 .f32) (v5 : Vec Ideal S512x1024 .bf16) (v12 v20 : Vec Ideal S1x1024 .f32)
    (v29 : Vec Ideal S1024x512 .bf16) (v36 v44 : Vec Ideal S1x512 .f32) (v51 : Vec Ideal S512x2048 .bf16) (v54 : Vec Ideal S1x2048 .f32)
    (v61 : Vec Ideal S2048x512 .bf16) (v64 : Vec Ideal S1x512 .f32) (p : Fin 256) (q : Fin 512) :
    k0_pay2 (F := Ideal) (k0_pay3 v0 v5 v12 v20 v29) (k0_pay4 v36) v44 v51 v54 v61 v64 (ix2 p q)
      = enhRowP v5 v12 v20 v29 v36 v44 v51 v54 v61 v64 (fun i => v0 (ix2 p i)) q := by
  rw [pay2_eq, enhBlk_apply]
  unfold enhRowP hidRowP
  simp only [hidBlk_apply, features_apply]

end Cert.KernelIdeal.RowValue

end
-- ==== Proof.PreparedArrays.lean ====
/-
  The parameter arrays the kernel program prepares on the host before its one region, entry by entry.

  Before the region runs, the program transposes the two layers' centres and the head's two weight matrices (with a
  change of format, which is the identity on ideal values), sums each centre's squares along its row, takes the
  reciprocal of each squared width, and lays the row sums, the reciprocals and the two biases out as one-row matrices.
  Each of the ten arrays is first written as the composite of its operations over the argument arrays, then read at an
  index given by its coordinates; together the readings are the structure `Cert.DualGaussian.Prepared`.
-/
import proofs.«131934_j50946902065338_1_alg».proof.Proof.Gen.KernelIdeal.Frame
import proofs.«131934_j50946902065338_1_alg».proof.Proof.Network
import Idealize.ShloMosaic.Lib.Pipeline.Value
import Idealize.ShloMosaic.Lib.ValueIdx
import Idealize.ShloMosaic.PureOps.Ideal.Laws
import Idealize.ShloMosaic.Lib.StableHlo.Run

noncomputable section

namespace Cert.KernelIdeal.PreparedValue

open Cert.KernelIdeal Cert.KernelIdeal.Gen
open Idealize.ShloMosaic Idealize.ShloMosaic.TcCoe Idealize.ShloMosaic.StableHlo Idealize.ShloMosaic.ValueIdx

variable (m : (ℓ : Loc nD τ sig) → Buf (Elt Ideal) ℓ)

/-! ## The layout operations read at an index given by its coordinates -/

/-- A transposed matrix at row `a`, column `b` is the matrix at row `b`, column `a`. -/
theorem transpose_ix2 {n0 n1 : Nat} (x : (⟨2, ![n0, n1]⟩ : Shape).Idx → EReal)
    (h : (⟨2, ![n0, n1]⟩ : Shape).Transposes [1, 0] ⟨2, ![n1, n0]⟩) (a : Fin n1) (b : Fin n0) :
    transpose ⟨2, ![n1, n0]⟩ [1, 0] x h (ix2 a b) = x (ix2 b a) :=
  transpose_apply [1, 0] x h (ix2 a b) (ix2 b a) (fun d => match d with
    | ⟨0, _⟩ => rfl
    | ⟨1, _⟩ => rfl)

/-- A vector laid out as a one-row matrix, read in that row at column `k`, is the vector at `k`. -/
theorem row_ix2 {n : Nat} (hn : n ≠ 1) (x : (⟨1, ![n]⟩ : Shape).Idx → EReal)
    (h : (⟨1, ![n]⟩ : Shape).BroadcastsInDim ⟨2, ![1, n]⟩ ![1]) (k : Fin n) :
    broadcastInDim ⟨2, ![1, n]⟩ ![1] h x (ix2 0 k) = x (ix1 k) :=
  broadcastInDim_apply _ h x (ix2 0 k) (ix1 k) (fun a => match a with
    | ⟨0, _⟩ => by show k.val = if n = 1 then 0 else k.val; rw [if_neg hn])

/-- A scalar spread over a vector is that scalar at every index. -/
theorem splat_ix1 {n : Nat} (x : (⟨0, ![]⟩ : Shape).Idx → EReal)
    (h : (⟨0, ![]⟩ : Shape).BroadcastsInDim ⟨1, ![n]⟩ ![]) (k : Fin n) :
    broadcastInDim ⟨1, ![n]⟩ ![] h x (ix1 k) = x (fun a => a.elim0) :=
  broadcastInDim_apply _ h x (ix1 k) (fun a => a.elim0) (fun a => a.elim0)

/-- The f32 word `0x3F800000` is the number one. -/
theorem ofBits_one_f32 : Ideal.ofBits .f32 0x3F800000#32 = 1 := by
  simp [Ideal.ofBits, Ideal.ieee]
  rw [← EReal.coe_mul, ← EReal.coe_one]
  congr 1
  norm_num

/-- The sum along the rows of a 1024 × 512 matrix, started from the zero word, at row `k`. -/
theorem rowSum_1024x512 (x : FVec Ideal S1024x512 .f32) (k : Fin 1024) :
    Host.reduceAdd (F := Ideal) x (constant (F := Ideal) S_ .f32 0x00000000#32) reducesTo_S1024x512_S1024_d1 h_S_ (ix1 k)
      = ∑ i : Fin 512, x (ix2 k i) := by
  simp only [Host.reduceAdd, Ideal.hostReduceAdd_def]
  rw [Ideal.hostReduceAdd_single reducesTo_S1024x512_S1024_d1 (by decide), constant_apply, Ideal.ofBits_zero_f32, zero_add]
  refine Finset.sum_congr rfl fun i _ => ?_
  exact congrArg x (funext fun a => Fin.ext (by match a with | ⟨0, _⟩ => rfl | ⟨1, _⟩ => rfl))

/-- The sum along the rows of a 512 × 1024 matrix, started from the zero word, at row `j`. -/
theorem rowSum_512x1024 (x : FVec Ideal S512x1024 .f32) (j : Fin 512) :
    Host.reduceAdd (F := Ideal) x (constant (F := Ideal) S_ .f32 0x00000000#32) reducesTo_S512x1024_S512_d1 h_S_ (ix1 j)
      = ∑ k : Fin 1024, x (ix2 j k) := by
  simp only [Host.reduceAdd, Ideal.hostReduceAdd_def]
  rw [Ideal.hostReduceAdd_single reducesTo_S512x1024_S512_d1 (by decide), constant_apply, Ideal.ofBits_zero_f32, zero_add]
  refine Finset.sum_congr rfl fun k _ => ?_
  exact congrArg x (funext fun a => Fin.ext (by match a with | ⟨0, _⟩ => rfl | ⟨1, _⟩ => rfl))

/-! ## The composites read at an index, over any arrays of the arguments' shapes -/

/-- Squares summed along each row of a 1024 × 512 matrix, laid out as one row. -/
theorem sqRow_1024x512 (C : FVec Ideal S1024x512 .f32) (k : Fin 1024) :
    broadcastInDim S1x1024 ![1] bcast_S1024_S1x1024_1
        (Host.reduceAdd (F := Ideal) (mulf (F := Ideal) C C) (constant (F := Ideal) S_ .f32 0x00000000#32)
          reducesTo_S1024x512_S1024_d1 h_S_) (ix2 0 k)
      = ∑ i : Fin 512, C (ix2 k i) * C (ix2 k i) := by
  rw [row_ix2 (by decide), rowSum_1024x512]
  rfl

/-- Squares summed along each row of a 512 × 1024 matrix, laid out as one row. -/
theorem sqRow_512x1024 (C : FVec Ideal S512x1024 .f32) (j : Fin 512) :
    broadcastInDim S1x512 ![1] bcast_S512_S1x512_1
        (Host.reduceAdd (F := Ideal) (mulf (F := Ideal) C C) (constant (F := Ideal) S_ .f32 0x00000000#32)
          reducesTo_S512x1024_S512_d1 h_S_) (ix2 0 j)
      = ∑ k : Fin 1024, C (ix2 j k) * C (ix2 j k) := by
  rw [row_ix2 (by decide), rowSum_512x1024]
  rfl

/-- One over each squared entry of a vector, the one spread from the word `0x3F800000`, laid out as one row. -/
theorem invRow_ix2 {n : Nat} (hn : n ≠ 1) (S : FVec Ideal ⟨1, ![n]⟩ .f32)
    (h1 : (⟨1, ![n]⟩ : Shape).BroadcastsInDim ⟨2, ![1, n]⟩ ![1])
    (h0 : (⟨0, ![]⟩ : Shape).BroadcastsInDim ⟨1, ![n]⟩ ![]) (k : Fin n) :
    broadcastInDim ⟨2, ![1, n]⟩ ![1] h1
        (Host.divf (F := Ideal) (broadcastInDim ⟨1, ![n]⟩ ![] h0 (constant (F := Ideal) ⟨0, ![]⟩ .f32 0x3F800000#32))
          (mulf (F := Ideal) S S)) (ix2 0 k)
      = Ideal.div 1 (S (ix1 k) * S (ix1 k)) := by
  rw [row_ix2 hn]
  show Ideal.div (broadcastInDim ⟨1, ![n]⟩ ![] h0 (constant (F := Ideal) ⟨0, ![]⟩ .f32 0x3F800000#32) (ix1 k)) _ = _
  rw [splat_ix1, constant_apply, ofBits_one_f32]
  rfl

/-! ## The ten prepared arrays, each as the host operations' composite over the argument arrays -/

section Arrays

variable (c : Dev nD)

/-- The first layer's centres, transposed (the format change does nothing to an ideal value). -/
theorem v1_term : @Eq (FVec Ideal S512x1024 .bf16) (V m c main_v1)
    (truncf (F := Ideal) .bf16 (transpose S512x1024 [1, 0] (m ((c : Thread nD τ).loc main_arg1)) transposes_S1024x512_S512x1024_1_0) bitsLt_bf16_f32) := by
  dsimp only [Gen.V, Gen.hostOps0]
  after_results

/-- The second layer's centres, transposed. -/
theorem v3_term : @Eq (FVec Ideal S1024x512 .bf16) (V m c main_v3)
    (truncf (F := Ideal) .bf16 (transpose S1024x512 [1, 0] (m ((c : Thread nD τ).loc main_arg3)) transposes_S512x1024_S1024x512_1_0) bitsLt_bf16_f32) := by
  dsimp only [Gen.V, Gen.hostOps0]
  after_results

/-- The head's first weight matrix, transposed. -/
theorem v5_term : @Eq (FVec Ideal S512x2048 .bf16) (V m c main_v5)
    (truncf (F := Ideal) .bf16 (transpose S512x2048 [1, 0] (m ((c : Thread nD τ).loc main_arg5)) transposes_S2048x512_S512x2048_1_0) bitsLt_bf16_f32) := by
  dsimp only [Gen.V, Gen.hostOps0]
  after_results

/-- The head's second weight matrix, transposed. -/
theorem v7_term : @Eq (FVec Ideal S2048x512 .bf16) (V m c main_v7)
    (truncf (F := Ideal) .bf16 (transpose S2048x512 [1, 0] (m ((c : Thread nD τ).loc main_arg7)) transposes_S512x2048_S2048x512_1_0) bitsLt_bf16_f32) := by
  dsimp only [Gen.V, Gen.hostOps0]
  after_results

/-- The squared norms of the first layer's centres, as one row. -/
theorem v10_term : @Eq (FVec Ideal S1x1024 .f32) (V m c main_v10)
    (broadcastInDim S1x1024 ![1] bcast_S1024_S1x1024_1
      (Host.reduceAdd (F := Ideal) (mulf (F := Ideal) (φ := .f32) (s := S1024x512) (m ((c : Thread nD τ).loc main_arg1)) (m ((c : Thread nD τ).loc main_arg1)))
        (constant (F := Ideal) S_ .f32 0x00000000#32) reducesTo_S1024x512_S1024_d1 h_S_)) := by
  dsimp only [Gen.V, Gen.hostOps0]
  after_results

/-- The squared norms of the second layer's centres, as one row. -/
theorem v13_term : @Eq (FVec Ideal S1x512 .f32) (V m c main_v13)
    (broadcastInDim S1x512 ![1] bcast_S512_S1x512_1
      (Host.reduceAdd (F := Ideal) (mulf (F := Ideal) (φ := .f32) (s := S512x1024) (m ((c : Thread nD τ).loc main_arg3)) (m ((c : Thread nD τ).loc main_arg3)))
        (constant (F := Ideal) S_ .f32 0x00000000#32) reducesTo_S512x1024_S512_d1 h_S_)) := by
  dsimp only [Gen.V, Gen.hostOps0]
  after_results

/-- The reciprocals of the first layer's squared widths, as one row. -/
theorem v17_term : @Eq (FVec Ideal S1x1024 .f32) (V m c main_v17)
    (broadcastInDim S1x1024 ![1] bcast_S1024_S1x1024_1
      (Host.divf (F := Ideal) (broadcastInDim S1024 ![] bcast_S_S1024 (constant (F := Ideal) S_ .f32 0x3F800000#32))
        (mulf (F := Ideal) (φ := .f32) (s := S1024) (m ((c : Thread nD τ).loc main_arg2)) (m ((c : Thread nD τ).loc main_arg2))))) := by
  dsimp only [Gen.V, Gen.hostOps0]
  after_results

/-- The reciprocals of the second layer's squared widths, as one row. -/
theorem v21_term : @Eq (FVec Ideal S1x512 .f32) (V m c main_v21)
    (broadcastInDim S1x512 ![1] bcast_S512_S1x512_1
      (Host.divf (F := Ideal) (broadcastInDim S512 ![] bcast_S_S512 (constant (F := Ideal) S_ .f32 0x3F800000#32))
        (mulf (F := Ideal) (φ := .f32) (s := S512) (m ((c : Thread nD τ).loc main_arg4)) (m ((c : Thread nD τ).loc main_arg4))))) := by
  dsimp only [Gen.V, Gen.hostOps0]
  after_results

/-- The head's first bias, as one row. -/
theorem v22_term : @Eq (FVec Ideal S1x2048 .f32) (V m c main_v22)
    (broadcastInDim S1x2048 ![1] bcast_S2048_S1x2048_1 (m ((c : Thread nD τ).loc main_arg6))) := by
  dsimp only [Gen.V, Gen.hostOps0]
  after_results

/-- The head's second bias, as one row. -/
theorem v23_term : @Eq (FVec Ideal S1x512 .f32) (V m c main_v23)
    (broadcastInDim S1x512 ![1] bcast_S512_S1x512_1 (m ((c : Thread nD τ).loc main_arg8))) := by
  dsimp only [Gen.V, Gen.hostOps0]
  after_results

end Arrays

/-! ## Together -/

/-- The arrays the kernel's one region finds are the argument arrays prepared: transposed centres and weights, the
    centres' squared row norms, the reciprocal squared widths and the biases as one-row matrices. -/
theorem prepared (c : Dev nD) :
    Cert.DualGaussian.Prepared (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      (V m c main_v1) (V m c main_v10) (V m c main_v17) (V m c main_v3) (V m c main_v13) (V m c main_v21)
      (V m c main_v5) (V m c main_v22) (V m c main_v7) (V m c main_v23) where
  c1t_eq i k := (congrFun (v1_term m c) (ix2 i k)).trans (transpose_ix2 _ _ i k)
  c1sq_eq k := (congrFun (v10_term m c) (ix2 0 k)).trans (sqRow_1024x512 _ k)
  inv1_eq k := (congrFun (v17_term m c) (ix2 0 k)).trans (invRow_ix2 (by decide) _ _ _ k)
  c2t_eq k j := (congrFun (v3_term m c) (ix2 k j)).trans (transpose_ix2 _ _ k j)
  c2sq_eq j := (congrFun (v13_term m c) (ix2 0 j)).trans (sqRow_512x1024 _ j)
  inv2_eq j := (congrFun (v21_term m c) (ix2 0 j)).trans (invRow_ix2 (by decide) _ _ _ j)
  w1t_eq j n := (congrFun (v5_term m c) (ix2 j n)).trans (transpose_ix2 _ _ j n)
  b1_eq n := (congrFun (v22_term m c) (ix2 0 n)).trans (row_ix2 (by decide) _ _ n)
  w2t_eq n q := (congrFun (v7_term m c) (ix2 n q)).trans (transpose_ix2 _ _ n q)
  b2_eq q := (congrFun (v23_term m c) (ix2 0 q)).trans (row_ix2 (by decide) _ _ q)

end Cert.KernelIdeal.PreparedValue

end
-- ==== Proof.KernelArrays.lean ====
/-
  From the blocks to the arrays: after the kernel's run the first result array is the network's features array and the
  second its enhanced array, as functions of the nine argument arrays, provided the widths are nonzero.

  Grid point `t` of 32 stages rows `256·t … 256·t + 255` of the input and writes the same rows of both results; every
  other operand is staged whole at every point.  So what point `t` writes back is the features (the enhanced output) of
  those rows, the 32 row blocks tile the result arrays, and each result array ends holding the whole-array function.
-/
import proofs.«131934_j50946902065338_1_alg».proof.Proof.Gen.KernelIdeal.Value
import proofs.«131934_j50946902065338_1_alg».proof.Proof.KernelRows
import proofs.«131934_j50946902065338_1_alg».proof.Proof.PreparedArrays
import Idealize.ShloMosaic.Lib.Pipeline.Value

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.DualGaussian
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 32 grid points: the input and the two results move one row block per
    point, every parameter window stays at block (0, 0). -/
theorem idx_facts : ∀ t : Fin cfg0.N,
    (win0_0.index t (0 : Fin 2) = t.val ∧ win0_0.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem t_lt (t : Fin cfg0.N) : t.val < 32 := lt_of_lt_of_eq t.isLt N_0

/-! ## The input windows' blocks -/

/-- Row `p` of the input's block at point `t` is row `256·t + p` of the input. -/
theorem xblk_apply (c : Dev nD) (t : Fin cfg0.N) (p : Fin 256) (i : Fin 512) :
    (iblk m c 0 t : Vec Ideal S256x512 .f32) (ix2 p i)
      = (m ((c : Thread nD τ).loc main_arg0) : S8192x512.Idx → EReal) (ix2 ⟨256 * t.val + p.val, by have := t_lt t; omega⟩ i) := by
  obtain ⟨⟨e0, e1⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * p.val = 256 * t.val + p.val; rw [e0]; omega
  | ⟨1, _⟩ => show win0_0.index t 1 * 512 + 1 * i.val = i.val; rw [e1]; omega

/-- Every parameter window's block, at every point, is its whole array as the region finds it. -/
theorem pblk1 (c : Dev nD) (t : Fin cfg0.N) : (iblk m c 1 t : Vec Ideal S512x1024 .bf16) = V m c main_v1 := by
  obtain ⟨e0, e1⟩ := (idx_facts t).2.2.2.1
  funext y
  unfold iblk
  rw [View.read_apply]
  show V m c main_v1 _ = V m c main_v1 y
  congr 1
  funext a
  apply Fin.ext
  match a with
  | ⟨0, _⟩ => show win0_1.index t 0 * 512 + 1 * (y 0).val = (y 0).val; rw [e0]; omega
  | ⟨1, _⟩ => show win0_1.index t 1 * 1024 + 1 * (y 1).val = (y 1).val; rw [e1]; omega

theorem pblk2 (c : Dev nD) (t : Fin cfg0.N) : (iblk m c 2 t : Vec Ideal S1x1024 .f32) = V m c main_v10 := by
  obtain ⟨e0, e1⟩ := (idx_facts t).2.2.2.2.1
  funext y
  unfold iblk
  rw [View.read_apply]
  show V m c main_v10 _ = V m c main_v10 y
  congr 1
  funext a
  apply Fin.ext
  match a with
  | ⟨0, _⟩ => show win0_2.index t 0 * 1 + 1 * (y 0).val = (y 0).val; rw [e0]; omega
  | ⟨1, _⟩ => show win0_2.index t 1 * 1024 + 1 * (y 1).val = (y 1).val; rw [e1]; omega

theorem pblk3 (c : Dev nD) (t : Fin cfg0.N) : (iblk m c 3 t : Vec Ideal S1x1024 .f32) = V m c main_v17 := by
  obtain ⟨e0, e1⟩ := (idx_facts t).2.2.2.2.2.1
  funext y
  unfold iblk
  rw [View.read_apply]
  show V m c main_v17 _ = V m c main_v17 y
  congr 1
  funext a
  apply Fin.ext
  match a with
  | ⟨0, _⟩ => show win0_3.index t 0 * 1 + 1 * (y 0).val = (y 0).val; rw [e0]; omega
  | ⟨1, _⟩ => show win0_3.index t 1 * 1024 + 1 * (y 1).val = (y 1).val; rw [e1]; omega

theorem pblk4 (c : Dev nD) (t : Fin cfg0.N) : (iblk m c 4 t : Vec Ideal S1024x512 .bf16) = V m c main_v3 := by
  obtain ⟨e0, e1⟩ := (idx_facts t).2.2.2.2.2.2.1
  funext y
  unfold iblk
  rw [View.read_apply]
  show V m c main_v3 _ = V m c main_v3 y
  congr 1
  funext a
  apply Fin.ext
  match a with
  | ⟨0, _⟩ => show win0_4.index t 0 * 1024 + 1 * (y 0).val = (y 0).val; rw [e0]; omega
  | ⟨1, _⟩ => show win0_4.index t 1 * 512 + 1 * (y 1).val = (y 1).val; rw [e1]; omega

theorem pblk5 (c : Dev nD) (t : Fin cfg0.N) : (iblk m c 5 t : Vec Ideal S1x512 .f32) = V m c main_v13 := by
  obtain ⟨e0, e1⟩ := (idx_facts t).2.2.2.2.2.2.2.1
  funext y
  unfold iblk
  rw [View.read_apply]
  show V m c main_v13 _ = V m c main_v13 y
  congr 1
  funext a
  apply Fin.ext
  match a with
  | ⟨0, _⟩ => show win0_5.index t 0 * 1 + 1 * (y 0).val = (y 0).val; rw [e0]; omega
  | ⟨1, _⟩ => show win0_5.index t 1 * 512 + 1 * (y 1).val = (y 1).val; rw [e1]; omega

theorem pblk6 (c : Dev nD) (t : Fin cfg0.N) : (iblk m c 6 t : Vec Ideal S1x512 .f32) = V m c main_v21 := by
  obtain ⟨e0, e1⟩ := (idx_facts t).2.2.2.2.2.2.2.2.1
  funext y
  unfold iblk
  rw [View.read_apply]
  show V m c main_v21 _ = V m c main_v21 y
  congr 1
  funext a
  apply Fin.ext
  match a with
  | ⟨0, _⟩ => show win0_6.index t 0 * 1 + 1 * (y 0).val = (y 0).val; rw [e0]; omega
  | ⟨1, _⟩ => show win0_6.index t 1 * 512 + 1 * (y 1).val = (y 1).val; rw [e1]; omega

theorem pblk7 (c : Dev nD) (t : Fin cfg0.N) : (iblk m c 7 t : Vec Ideal S512x2048 .bf16) = V m c main_v5 := by
  obtain ⟨e0, e1⟩ := (idx_facts t).2.2.2.2.2.2.2.2.2.1
  funext y
  unfold iblk
  rw [View.read_apply]
  show V m c main_v5 _ = V m c main_v5 y
  congr 1
  funext a
  apply Fin.ext
  match a with
  | ⟨0, _⟩ => show win0_7.index t 0 * 512 + 1 * (y 0).val = (y 0).val; rw [e0]; omega
  | ⟨1, _⟩ => show win0_7.index t 1 * 2048 + 1 * (y 1).val = (y 1).val; rw [e1]; omega

theorem pblk8 (c : Dev nD) (t : Fin cfg0.N) : (iblk m c 8 t : Vec Ideal S1x2048 .f32) = V m c main_v22 := by
  obtain ⟨e0, e1⟩ := (idx_facts t).2.2.2.2.2.2.2.2.2.2.1
  funext y
  unfold iblk
  rw [View.read_apply]
  show V m c main_v22 _ = V m c main_v22 y
  congr 1
  funext a
  apply Fin.ext
  match a with
  | ⟨0, _⟩ => show win0_8.index t 0 * 1 + 1 * (y 0).val = (y 0).val; rw [e0]; omega
  | ⟨1, _⟩ => show win0_8.index t 1 * 2048 + 1 * (y 1).val = (y 1).val; rw [e1]; omega

theorem pblk9 (c : Dev nD) (t : Fin cfg0.N) : (iblk m c 9 t : Vec Ideal S2048x512 .bf16) = V m c main_v7 := by
  obtain ⟨e0, e1⟩ := (idx_facts t).2.2.2.2.2.2.2.2.2.2.2.1
  funext y
  unfold iblk
  rw [View.read_apply]
  show V m c main_v7 _ = V m c main_v7 y
  congr 1
  funext a
  apply Fin.ext
  match a with
  | ⟨0, _⟩ => show win0_9.index t 0 * 2048 + 1 * (y 0).val = (y 0).val; rw [e0]; omega
  | ⟨1, _⟩ => show win0_9.index t 1 * 512 + 1 * (y 1).val = (y 1).val; rw [e1]; omega

theorem pblk10 (c : Dev nD) (t : Fin cfg0.N) : (iblk m c 10 t : Vec Ideal S1x512 .f32) = V m c main_v23 := by
  obtain ⟨e0, e1⟩ := (idx_facts t).2.2.2.2.2.2.2.2.2.2.2.2
  funext y
  unfold iblk
  rw [View.read_apply]
  show V m c main_v23 _ = V m c main_v23 y
  congr 1
  funext a
  apply Fin.ext
  match a with
  | ⟨0, _⟩ => show win0_10.index t 0 * 1 + 1 * (y 0).val = (y 0).val; rw [e0]; omega
  | ⟨1, _⟩ => show win0_10.index t 1 * 512 + 1 * (y 1).val = (y 1).val; rw [e1]; omega

/-! ## What a point writes back -/

/-- Two 256 × 512 blocks are equal when they agree at every `(p, q)`. -/
theorem blk_ext {A B : S256x512.Idx → EReal} (h : ∀ (p : Fin 256) (q : Fin 512), A (ix2 p q) = B (ix2 p q)) : A = B :=
  funext fun j => by rw [eq_ix2 j]; exact h _ _

/-- The features array of the argument arrays. -/
abbrev featG (c : Dev nD) : S8192x512.Idx → EReal :=
  featArr (m ((c : Thread nD τ).loc main_arg1)) (m ((c : Thread nD τ).loc main_arg2)) (m ((c : Thread nD τ).loc main_arg3))
    (m ((c : Thread nD τ).loc main_arg4)) (m ((c : Thread nD τ).loc main_arg0))

/-- The enhanced array of the argument arrays. -/
abbrev enhG (c : Dev nD) : S8192x512.Idx → EReal :=
  enhArr (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg0))

/-- Entry `(p, q)` of the features result's block at point `t` is entry `(256·t + p, q)` of the array. -/
theorem emb11 (t : Fin cfg0.N) (p : Fin 256) (q : Fin 512) :
    ((cfg0.win 11).blk t).view.emb (ix2 p q) = (ix2 ⟨256 * t.val + p.val, by have := t_lt t; omega⟩ q : S8192x512.Idx) := by
  obtain ⟨e0, e1⟩ := (idx_facts t).2.1
  funext a
  apply Fin.ext
  match a with
  | ⟨0, _⟩ => show win0_11.index t 0 * 256 + 1 * p.val = 256 * t.val + p.val; rw [e0]; omega
  | ⟨1, _⟩ => show win0_11.index t 1 * 512 + 1 * q.val = q.val; rw [e1]; omega

theorem emb12 (t : Fin cfg0.N) (p : Fin 256) (q : Fin 512) :
    ((cfg0.win 12).blk t).view.emb (ix2 p q) = (ix2 ⟨256 * t.val + p.val, by have := t_lt t; omega⟩ q : S8192x512.Idx) := by
  obtain ⟨e0, e1⟩ := (idx_facts t).2.2.1
  funext a
  apply Fin.ext
  match a with
  | ⟨0, _⟩ => show win0_12.index t 0 * 256 + 1 * p.val = 256 * t.val + p.val; rw [e0]; omega
  | ⟨1, _⟩ => show win0_12.index t 1 * 512 + 1 * q.val = q.val; rw [e1]; omega

section Nonzero

variable (c : Dev nD)
  (h1 : ∀ k : Fin 1024, Ne (α := EReal) (m ((c : Thread nD τ).loc main_arg2) (ix1 k)) 0)
  (h2 : ∀ j : Fin 512, Ne (α := EReal) (m ((c : Thread nD τ).loc main_arg4) (ix1 j)) 0)
include h1 h2

/-- WHAT POINT `t` WRITES BACK to the first result is block `t` of the features array. -/
theorem flushed11_eq (t : Fin cfg0.N) :
    (dats m 0 c).flushed 11 t = ((cfg0.win 11).blk t).view.read (Elt Ideal) (featG m c) := by
  rw [flushed11]
  unfold out0_11
  rw [View.canon_unit_zero hz]
  simp only [View.ld_unit_zero (S := S256x512) hz, View.ld_unit_zero (S := S512x1024) hz, View.ld_unit_zero (S := S1x1024) hz,
    View.ld_unit_zero (S := S1024x512) hz, View.ld_unit_zero (S := S1x512) hz]
  refine blk_ext fun p q => ?_
  rw [View.read_apply, emb11]
  show k0_pay1 (F := Ideal) (k0_pay3 (iblk m c 0 t) (iblk m c 1 t) (iblk m c 2 t) (iblk m c 3 t) (iblk m c 4 t))
    (k0_pay4 (iblk m c 5 t)) (iblk m c 6 t) (ix2 p q) = _
  refine (RowValue.features_apply (iblk m c 0 t) (iblk m c 1 t) (iblk m c 2 t) (iblk m c 3 t) (iblk m c 4 t) (iblk m c 5 t)
    (iblk m c 6 t) p q).trans ?_
  rw [pblk1, pblk2, pblk3, pblk4, pblk5, pblk6, featRowP_eq (PreparedValue.prepared m c) h1 h2]
  show featRow _ _ _ _ _ q = featRow _ _ _ _ _ q
  congr 1
  funext i
  exact xblk_apply m c t p i

/-- WHAT POINT `t` WRITES BACK to the second result is block `t` of the enhanced array. -/
theorem flushed12_eq (t : Fin cfg0.N) :
    (dats m 0 c).flushed 12 t = ((cfg0.win 12).blk t).view.read (Elt Ideal) (enhG m c) := by
  rw [flushed12]
  unfold out0_12
  rw [View.canon_unit_zero hz]
  simp only [View.ld_unit_zero (S := S256x512) hz, View.ld_unit_zero (S := S512x1024) hz, View.ld_unit_zero (S := S1x1024) hz,
    View.ld_unit_zero (S := S1024x512) hz, View.ld_unit_zero (S := S1x512) hz, View.ld_unit_zero (S := S512x2048) hz,
    View.ld_unit_zero (S := S1x2048) hz, View.ld_unit_zero (S := S2048x512) hz]
  refine blk_ext fun p q => ?_
  rw [View.read_apply, emb12]
  show k0_pay2 (F := Ideal) (k0_pay3 (iblk m c 0 t) (iblk m c 1 t) (iblk m c 2 t) (iblk m c 3 t) (iblk m c 4 t))
    (k0_pay4 (iblk m c 5 t)) (iblk m c 6 t) (iblk m c 7 t) (iblk m c 8 t) (iblk m c 9 t) (iblk m c 10 t) (ix2 p q) = _
  refine (RowValue.enhanced_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) p q).trans ?_
  rw [pblk1, pblk2, pblk3, pblk4, pblk5, pblk6, pblk7, pblk8, pblk9, pblk10, enhRowP_eq (PreparedValue.prepared m c) h1 h2]
  show enhRow _ _ _ _ _ _ _ _ _ q = enhRow _ _ _ _ _ _ _ _ _ q
  congr 1
  funext i
  exact xblk_apply m c t p i

omit h1 h2 in
/-- An index of a result array is in point `t`'s block iff each coordinate is in the block's range on its axis. -/
theorem mem_blk11 (t : Fin cfg0.N) (i : S8192x512.Idx) :
    i ∈ ((cfg0.win 11).blk t).view.set ↔ ∀ a : Fin 2, win0_11.index t a * S256x512.size a ≤ (i a).val ∧ (i a).val < win0_11.index t a * S256x512.size a + S256x512.size a := by
  show i ∈ ((View.whole main_v24_0).slice (win0_11.rect t)).set ↔ _
  rw [View.set_slice_whole, Rect.mem_set_unit]
  exact Iff.rfl

omit h1 h2 in
theorem mem_blk12 (t : Fin cfg0.N) (i : S8192x512.Idx) :
    i ∈ ((cfg0.win 12).blk t).view.set ↔ ∀ a : Fin 2, win0_12.index t a * S256x512.size a ≤ (i a).val ∧ (i a).val < win0_12.index t a * S256x512.size a + S256x512.size a := by
  show i ∈ ((View.whole main_v24_1).slice (win0_12.rect t)).set ↔ _
  rw [View.set_slice_whole, Rect.mem_set_unit]
  exact Iff.rfl

omit h1 h2 in
/-- The 32 row blocks tile a result array: row `r` lies in the block of point `r / 256`. -/
theorem cover11 (i : S8192x512.Idx) : ∃ t : Fin cfg0.N, (cfg0.win 11).flush t = true ∧ i ∈ ((cfg0.win 11).blk t).view.set := by
  have hi0 : (i 0).val < 8192 := (i 0).isLt
  have hi1 : (i 1).val < 512 := (i 1).isLt
  have ht : (i 0).val / 256 < cfg0.N := lt_of_lt_of_eq (show (i 0).val / 256 < 32 by omega) N_0.symm
  obtain ⟨e0, e1⟩ := (idx_facts ⟨(i 0).val / 256, ht⟩).2.1
  refine ⟨⟨(i 0).val / 256, ht⟩, flush0_11 _, ?_⟩
  rw [mem_blk11]
  intro a
  match a with
  | ⟨0, _⟩ =>
    show win0_11.index ⟨(i 0).val / 256, ht⟩ 0 * 256 ≤ (i 0).val ∧ (i 0).val < win0_11.index ⟨(i 0).val / 256, ht⟩ 0 * 256 + 256
    rw [e0]; show (i 0).val / 256 * 256 ≤ (i 0).val ∧ (i 0).val < (i 0).val / 256 * 256 + 256; omega
  | ⟨1, _⟩ =>
    show win0_11.index ⟨(i 0).val / 256, ht⟩ 1 * 512 ≤ (i 1).val ∧ (i 1).val < win0_11.index ⟨(i 0).val / 256, ht⟩ 1 * 512 + 512
    rw [e1]; omega

omit h1 h2 in
theorem cover12 (i : S8192x512.Idx) : ∃ t : Fin cfg0.N, (cfg0.win 12).flush t = true ∧ i ∈ ((cfg0.win 12).blk t).view.set := by
  have hi0 : (i 0).val < 8192 := (i 0).isLt
  have hi1 : (i 1).val < 512 := (i 1).isLt
  have ht : (i 0).val / 256 < cfg0.N := lt_of_lt_of_eq (show (i 0).val / 256 < 32 by omega) N_0.symm
  obtain ⟨e0, e1⟩ := (idx_facts ⟨(i 0).val / 256, ht⟩).2.2.1
  refine ⟨⟨(i 0).val / 256, ht⟩, flush0_12 _, ?_⟩
  rw [mem_blk12]
  intro a
  match a with
  | ⟨0, _⟩ =>
    show win0_12.index ⟨(i 0).val / 256, ht⟩ 0 * 256 ≤ (i 0).val ∧ (i 0).val < win0_12.index ⟨(i 0).val / 256, ht⟩ 0 * 256 + 256
    rw [e0]; show (i 0).val / 256 * 256 ≤ (i 0).val ∧ (i 0).val < (i 0).val / 256 * 256 + 256; omega
  | ⟨1, _⟩ =>
    show win0_12.index ⟨(i 0).val / 256, ht⟩ 1 * 512 ≤ (i 1).val ∧ (i 1).val < win0_12.index ⟨(i 0).val / 256, ht⟩ 1 * 512 + 512
    rw [e1]; omega

/-- So the first result array ends holding the features array, -/
theorem final11 : (dats m 0 c).arrAt 11 cfg0.N = featG m c :=
  (dats m 0 c).arrAt_eq_of_cover 11 (featG m c) (fun t _ => flushed11_eq m c h1 h2 t) cover11

/-- and the second the enhanced array. -/
theorem final12 : (dats m 0 c).arrAt 12 cfg0.N = enhG m c :=
  (dats m 0 c).arrAt_eq_of_cover 12 (enhG m c) (fun t _ => flushed12_eq m c h1 h2 t) cover12

end Nonzero

/-- The kernel's run, read: with nonzero widths, each result array at its function of the arguments, the arguments unchanged. -/
theorem run (h1 : ∀ (c : Dev nD) (k : Fin 1024), Ne (α := EReal) (m ((c : Thread nD τ).loc main_arg2) (ix1 k)) 0)
    (h2 : ∀ (c : Dev nD) (j : Fin 512), Ne (α := EReal) (m ((c : Thread nD τ).loc main_arg4) (ix1 j)) 0) :
    θ_run defs (onTc (τ := τ) (main (F := Ideal))) ⟨m, fun _ => 0, ρ⟩ fun r => ∀ c : Dev nD,
      r.2.mem ((c : Thread nD τ).loc main_v24_0) = featG m c
      ∧ r.2.mem ((c : Thread nD τ).loc main_v24_1) = enhG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final11 m c (h1 c) (h2 c)), (h c).2.1.trans (final12 m c (h1 c) (h2 c)), (h c).2.2⟩)
    (run_blocks m ρ)

end Cert.KernelIdeal.ArrayValue

end
-- ==== Proof.Widths.lean ====
/-
  Under the certificate's precondition every Gaussian width is nonzero.

  The precondition is a conjunction of eleven one-bit words: nine tests "every |x| is below +∞", one per
  argument array, then "every entry of the first layer's widths differs from 0" and the same for the second
  layer's widths.  The conjunction is left-nested, `and (and (… ) p₁₀) p₁₁`, so the last two conjuncts are
  split off first; each of them is a reduction by `and` of a one-bit array over all its axes, which is 1
  only if every entry is 1; and an entry is the comparison "unordered or not equal" of a width with the
  constant 0, which on the extended reals is 1 exactly when the width is not 0.
-/
import proofs.«131934_j50946902065338_1_alg».proof.Defs
import proofs.«131934_j50946902065338_1_alg».proof.Proof.Gen.Pre_finite_inputs
import Idealize.ShloMosaic.Lib.ReduceAll
import Idealize.ShloMosaic.Lib.ValueIdx
import Idealize.ShloMosaic.PureOps.Ideal.Laws

noncomputable section

namespace Cert.Widths

open Idealize.ShloMosaic Idealize.ShloMosaic.ValueIdx Cert.Pre_finite_inputs

/-- The scalar shape has one index. -/
instance subsingleton_scalarIdx : Subsingleton S_.Idx := ⟨fun a b => funext fun d => d.elim0⟩

/-! ## One entry: "unordered or not equal to the constant 0" -/

/-- On the extended reals the comparison "not equal" with the f32 word of `0.0` is 1 only off zero. -/
theorem ne_zero_of_une_one (x : Ideal .f32)
    (h : FloatOps.cmpf (F := Ideal) .une x (Ideal.ofBits .f32 0x00000000#32) = 1#1) : x ≠ 0 := by
  rw [Ideal.cmpf_def, Ideal.ofBits_zero_f32] at h
  intro hx
  rw [hx] at h
  revert h
  simp [Ideal.cmp]

/-- The array compared entry by entry with the broadcast of the scalar constant 0: an entry that compares to 1 is not 0. -/
theorem ne_zero_of_cmpf_bcast {s : Shape} (hb : S_.BroadcastsInDim s (![] : Fin 0 → Fin s.rank)) (a : FVec Ideal s .f32) (i : s.Idx)
    (h : cmpf .une a (broadcastInDim s ![] hb (constant (F := Ideal) S_ .f32 0x00000000#32)) i = 1#1) : a i ≠ 0 :=
  ne_zero_of_une_one (a i) h

/-! ## One conjunct: `all (a ≠ 0)` -/

/-- A reduction by `and` over every axis of the entrywise test `a ≠ 0` that comes out 1 says every entry of `a` is nonzero. -/
theorem all_ne_zero {s : Shape} {axes : List (Fin s.rank)} (hb : S_.BroadcastsInDim s (![] : Fin 0 → Fin s.rank))
    (hr : s.ReducesTo axes S_) (hu : 0 < S_.numel) (a : FVec Ideal s .f32) (init : IVec S_ 1)
    (h : Host.reduce IntOp.andi (cmpf .une a (broadcastInDim s ![] hb (constant (F := Ideal) S_ .f32 0x00000000#32))) init hr hu ix0 = 1#1)
    (i : s.Idx) : a i ≠ 0 :=
  ne_zero_of_cmpf_bcast hb a i (Host.reduce_andi_all _ init hr hu ix0 h i)

/-! ## The conjunction, walked from its last conjunct -/

section Chain

variable [Cert.Pre_finite_inputs.Facts]

/-- The last link: the conjunction so far, and the second layer's test reduced. -/
theorem part3_one (v47 : IVec S_ 1) (a4 : FVec Ideal S512 .f32) (init : IVec S_ 1)
    (h : fn_part3 (F := Ideal) v47
      (cmpf .une a4 (broadcastInDim S512 ![] Facts.bcast_S_S512 (constant (F := Ideal) S_ .f32 0x00000000#32))) init = fun _ => 1#1) :
    v47 ix0 = 1#1 ∧ ∀ i : S512.Idx, a4 i ≠ 0 := by
  have h0 := congrFun h ix0
  obtain ⟨hl, hr⟩ := IntOp.andi_eq_one.1 h0
  exact ⟨hl, fun i => all_ne_zero _ _ _ a4 init hr i⟩

/-- The middle stretch ends in the two width tests; whatever the conjunction before them is, both hold. -/
theorem part2_one (a2 : FVec Ideal S1024 .f32) (a4 : FVec Ideal S512 .f32) (a7 : FVec Ideal S512x2048 .f32)
    (a8 : FVec Ideal S512 .f32) (v33 : IVec S_ 1)
    (h : fn_part2 (F := Ideal) a2 a4 a7 a8 v33 = fun _ => 1#1) :
    (∀ i : S1024.Idx, a2 i ≠ 0) ∧ (∀ i : S512.Idx, a4 i ≠ 0) := by
  obtain ⟨h47, h4⟩ := part3_one _ a4 _ h
  obtain ⟨-, h46⟩ := IntOp.andi_eq_one.1 h47
  exact ⟨fun i => all_ne_zero _ _ _ a2 _ h46 i, h4⟩

/-- The stretch before it only hands its conjunction on. -/
theorem part1_one (a2 : FVec Ideal S1024 .f32) (a4 : FVec Ideal S512 .f32) (a5 : FVec Ideal S2048x512 .f32)
    (a6 : FVec Ideal S2048 .f32) (a7 : FVec Ideal S512x2048 .f32) (a8 : FVec Ideal S512 .f32) (v13 : IVec S_ 1)
    (v16 : IVec S512x1024 1)
    (h : fn_part1 (F := Ideal) a2 a4 a5 a6 a7 a8 v13 v16 = fun _ => 1#1) :
    (∀ i : S1024.Idx, a2 i ≠ 0) ∧ (∀ i : S512.Idx, a4 i ≠ 0) :=
  part2_one a2 a4 a7 a8 _ h

/-- The whole precondition at 1 gives both families of widths nonzero. -/
theorem sigmas_ne_zero_of_fn (a0 : FVec Ideal S8192x512 .f32) (a1 : FVec Ideal S1024x512 .f32) (a2 : FVec Ideal S1024 .f32)
    (a3 : FVec Ideal S512x1024 .f32) (a4 : FVec Ideal S512 .f32) (a5 : FVec Ideal S2048x512 .f32) (a6 : FVec Ideal S2048 .f32)
    (a7 : FVec Ideal S512x2048 .f32) (a8 : FVec Ideal S512 .f32)
    (h : Cert.Pre_finite_inputs.fn (F := Ideal) a0 a1 a2 a3 a4 a5 a6 a7 a8 = fun _ => 1#1) :
    (∀ k : Fin 1024, a2 (ValueIdx.ix1 k) ≠ 0) ∧ (∀ j : Fin 512, a4 (ValueIdx.ix1 j) ≠ 0) := by
  obtain ⟨h2, h4⟩ := part1_one a2 a4 a5 a6 a7 a8 _ _ h
  exact ⟨fun k => h2 (ix1 k), fun j => h4 (ix1 j)⟩

/-! ## At the kernel's argument buffers -/

/-- Every width of the first layer, as the kernel's third argument holds it, is nonzero. -/
theorem sigma1_ne_zero (m : (ℓ : Loc Cert.KernelIdeal.nD Cert.KernelIdeal.τ Cert.KernelIdeal.sig) → Buf (Elt Ideal) ℓ)
    (h : Cert.Pre_KernelIdeal m) (c : Dev Cert.KernelIdeal.nD) (k : Fin 1024) :
    Ne (α := EReal) (m ((c.tc : Thread Cert.KernelIdeal.nD Cert.KernelIdeal.τ).loc Cert.KernelIdeal.main_arg2) (ValueIdx.ix1 k)) 0 :=
  (sigmas_ne_zero_of_fn _ _ _ _ _ _ _ _ _ (h c)).1 k

/-- Every width of the second layer, as the kernel's fifth argument holds it, is nonzero. -/
theorem sigma2_ne_zero (m : (ℓ : Loc Cert.KernelIdeal.nD Cert.KernelIdeal.τ Cert.KernelIdeal.sig) → Buf (Elt Ideal) ℓ)
    (h : Cert.Pre_KernelIdeal m) (c : Dev Cert.KernelIdeal.nD) (j : Fin 512) :
    Ne (α := EReal) (m ((c.tc : Thread Cert.KernelIdeal.nD Cert.KernelIdeal.τ).loc Cert.KernelIdeal.main_arg4) (ValueIdx.ix1 j)) 0 :=
  (sigmas_ne_zero_of_fn _ _ _ _ _ _ _ _ _ (h c)).2 j

end Chain

end Cert.Widths

end
-- ==== Proof.lean ====
/-
  The certificate of a fused two-layer Gaussian network with a ReLU relation head.

  Both programs compute, for each of the 8192 input rows `x`,
    `h_k = exp (-(max (Σx² - 2·x·c1_k + Σc1_k²) 0) / σ1_k²)`  (1024 units),
    `features_j = exp (-(max (Σh² - 2·h·c2_j + Σc2_j²) 0) / σ2_j²)`  (512 units),
    `enhanced = max (features · W1ᵀ + b1) 0 · W2ᵀ + b2`,
  and return `(features, enhanced)`.  The reference does so on the whole arrays.  The kernel transposes the centres and
  weights, takes the centres' squared norms and the reciprocals `1/σ²` beforehand, and runs 32 grid points of 256 rows,
  multiplying by the reciprocal where the reference divides.  Over the extended reals a change of float format is the
  identity, a matrix product is its sum in any order, and `(0 - d)·(1/q) = (-d)/q` for `q ≠ 0`; at `q = 0` the two sides
  differ (`0·⊤ = 0` against the junk value of `0/0`), so the claim is stated for nonzero widths: the reference itself
  divides by `σ²`.

  The pieces: the network row by row and the law between the two spellings (Network); the reference's two results are the
  network's arrays (RefNetwork, over the generated reads of the reference's run); the kernel body's two stored blocks at
  an index (KernelRows, over LibRowOps); the prepared parameter arrays entry by entry (PreparedArrays); from the blocks
  to the arrays (KernelArrays, over the generated blockwise value leg); the widths are nonzero under the precondition
  (Widths).  The frames of the two kernel programs are the generated ones; the reference's is its generated run.
-/
import proofs.«131934_j50946902065338_1_alg».proof.Defs
import proofs.«131934_j50946902065338_1_alg».proof.Proof.Gen.Kernel
import proofs.«131934_j50946902065338_1_alg».proof.Proof.Gen.Kernel.Skeleton
import proofs.«131934_j50946902065338_1_alg».proof.Proof.Gen.Kernel.Launch
import proofs.«131934_j50946902065338_1_alg».proof.Proof.Gen.Kernel.Points
import proofs.«131934_j50946902065338_1_alg».proof.Proof.Gen.Kernel.Frame
import proofs.«131934_j50946902065338_1_alg».proof.Proof.Gen.KernelIdeal
import proofs.«131934_j50946902065338_1_alg».proof.Proof.Gen.KernelIdeal.Skeleton
import proofs.«131934_j50946902065338_1_alg».proof.Proof.Gen.KernelIdeal.Launch
import proofs.«131934_j50946902065338_1_alg».proof.Proof.Gen.KernelIdeal.Points
import proofs.«131934_j50946902065338_1_alg».proof.Proof.Gen.KernelIdeal.Frame
import proofs.«131934_j50946902065338_1_alg».proof.Proof.Gen.ReferenceIdeal
import proofs.«131934_j50946902065338_1_alg».proof.Proof.Gen.Pre_finite_inputs
import proofs.«131934_j50946902065338_1_alg».proof.Proof.Gen.KernelIdeal.Value
import proofs.«131934_j50946902065338_1_alg».proof.Proof.Gen.ReferenceIdeal.Run
import proofs.«131934_j50946902065338_1_alg».proof.Proof.Gen.ReferenceIdeal.Read
import proofs.«131934_j50946902065338_1_alg».proof.Proof.Network
import proofs.«131934_j50946902065338_1_alg».proof.Proof.RefNetwork
import proofs.«131934_j50946902065338_1_alg».proof.Proof.KernelArrays
import proofs.«131934_j50946902065338_1_alg».proof.Proof.Widths
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- With nonzero widths the kernel's two result arrays and the reference's are the network's features and enhanced
    arrays of the same nine arguments. -/
theorem algebraic : Cert.algebraic_KernelIdeal_ReferenceIdeal := by
  intro m ρ m' ρ' hpre hagree
  have h1 := fun c k => Cert.Widths.sigma1_ne_zero m hpre c k
  have h2 := fun c j => Cert.Widths.sigma2_ne_zero m hpre c j
  refine ⟨fun c => Cert.KernelIdeal.ArrayValue.featG m c, fun c => Cert.KernelIdeal.ArrayValue.enhG m c,
    Cert.KernelIdeal.ArrayValue.run m ρ h1 h2, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, -⟩ := hagree c
    rw [Cert.ReferenceIdeal.Read.val_main_v43_eq, Cert.ReferenceIdeal.RefValue.features_eq, a0, a1, a2, a3, a4]
  · obtain ⟨a0, a1, a2, a3, a4, a5, a6, a7, a8⟩ := hagree c
    rw [Cert.ReferenceIdeal.Read.val_main_v55_eq, Cert.ReferenceIdeal.RefValue.enhanced_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
